-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2x65536 : Shape := ⟨2, ![2, 65536]⟩
abbrev S2048x10 : Shape := ⟨2, ![2048, 10]⟩
abbrev S10 : Shape := ⟨1, ![10]⟩
abbrev S10x10 : Shape := ⟨2, ![10, 10]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x10 : S_.BroadcastsInDim S2048x10 (![] : Fin 0 → Fin S2048x10.rank)
  reducesTo_S2048x10_S_d0_1 : S2048x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S2x65536 : S_.BroadcastsInDim S2x65536 (![] : Fin 0 → Fin S2x65536.rank)
  reducesTo_S2x65536_S_d0_1 : S2x65536.ReducesTo [0, 1] S_

variable [Facts]

def fn_part2 {F : FTy → Type} [FloatOps F] (main_arg1 : IVec S2x65536 32) (main_v32 : IVec S_ 1) (main_c_12 : IVec S_ 32) : IVec S_ 1 :=
  let main_v33 : IVec S2x65536 32 := broadcastInDim S2x65536 ![] bcast_S_S2x65536 main_c_12
  let main_v34 : IVec S2x65536 1 := cmpi .slt main_arg1 main_v33
  let main_c_13 : IVec S_ 1 := constantI S_ 1 1#1
  let main_v35 : IVec S_ 1 := (fun x v => Host.reduce IntOp.andi x v reducesTo_S2x65536_S_d0_1 h_S_) main_v34 main_c_13
  let main_v36 : IVec S_ 1 := andi main_v32 main_v35
  main_v36

def fn_part1 {F : FTy → Type} [FloatOps F] (main_arg1 : IVec S2x65536 32) (main_arg5 : FVec F S10x10 .f32) (main_arg6 : FVec F S10 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x10 .f32 := Host.absf main_arg5
  let main_cst_6 : FVec F S_ .f32 := constant S_ .f32 0x7F800000#32
  let main_v20 : FVec F S10x10 .f32 := broadcastInDim S10x10 ![] bcast_S_S10x10 main_cst_6
  let main_v21 : IVec S10x10 1 := cmpf .olt main_v19 main_v20
  let main_c_7 : IVec S_ 1 := constantI S_ 1 1#1
  let main_v22 : IVec S_ 1 := (fun x v => Host.reduce IntOp.andi x v reducesTo_S10x10_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_c_10 : IVec S_ 32 := constantI S_ 32 0#32
  let main_v29 : IVec S2x65536 32 := broadcastInDim S2x65536 ![] bcast_S_S2x65536 main_c_10
  let main_v30 : IVec S2x65536 1 := cmpi .sge main_arg1 main_v29
  let main_c_11 : IVec S_ 1 := constantI S_ 1 1#1
  let main_v31 : IVec S_ 1 := (fun x v => Host.reduce IntOp.andi x v reducesTo_S2x65536_S_d0_1 h_S_) main_v30 main_c_11
  let main_v32 : IVec S_ 1 := andi main_v28 main_v31
  let main_c_12 : IVec S_ 32 := constantI S_ 32 2048#32
  fn_part2 (F := F) main_arg1 main_v32 main_c_12

def fn {F : FTy → Type} [FloatOps F] (main_arg0 : FVec F S2048x2048 .f32) (main_arg1 : IVec S2x65536 32) (main_arg2 : FVec F S2048x10 .f32) (main_arg3 : FVec F S2048x10 .f32) (main_arg4 : FVec F S10 .f32) (main_arg5 : FVec F S10x10 .f32) (main_arg6 : FVec F S10 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x10 .f32 := Host.absf main_arg2
  let main_cst_0 : FVec F S_ .f32 := constant S_ .f32 0x7F800000#32
  let main_v5 : FVec F S2048x10 .f32 := broadcastInDim S2048x10 ![] bcast_S_S2048x10 main_cst_0
  let main_v6 : IVec S2048x10 1 := cmpf .olt main_v4 main_v5
  let main_c_1 : IVec S_ 1 := constantI S_ 1 1#1
  let main_v7 : IVec S_ 1 := (fun x v => Host.reduce IntOp.andi x v reducesTo_S2048x10_S_d0_1 h_S_) main_v6 main_c_1
  let main_v8 : IVec S_ 1 := andi main_v3 main_v7
  let main_v9 : FVec F S2048x10 .f32 := Host.absf main_arg3
  let main_cst_2 : FVec F S_ .f32 := constant S_ .f32 0x7F800000#32
  let main_v10 : FVec F S2048x10 .f32 := broadcastInDim S2048x10 ![] bcast_S_S2048x10 main_cst_2
  let main_v11 : IVec S2048x10 1 := cmpf .olt main_v9 main_v10
  let main_c_3 : IVec S_ 1 := constantI S_ 1 1#1
  let main_v12 : IVec S_ 1 := (fun x v => Host.reduce IntOp.andi x v reducesTo_S2048x10_S_d0_1 h_S_) main_v11 main_c_3
  let main_v13 : IVec S_ 1 := andi main_v8 main_v12
  let main_v14 : FVec F S10 .f32 := Host.absf main_arg4
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg1 main_arg5 main_arg6 main_v13 main_v16
-- ==== Kernel.lean ====
abbrev S2048x2048 : Shape := ⟨2, ![2048, 2048]⟩
abbrev S2x65536 : Shape := ⟨2, ![2, 65536]⟩
abbrev S2048x10 : Shape := ⟨2, ![2048, 10]⟩
abbrev S10 : Shape := ⟨1, ![10]⟩
abbrev S10x10 : Shape := ⟨2, ![10, 10]⟩
abbrev S1x65536 : Shape := ⟨2, ![1, 65536]⟩
abbrev S65536 : Shape := ⟨1, ![65536]⟩
abbrev S_ : Shape := ⟨0, ![]⟩
abbrev S2048 : Shape := ⟨1, ![2048]⟩
abbrev S65536x1 : Shape := ⟨2, ![65536, 1]⟩
abbrev S4194304 : Shape := ⟨1, ![4194304]⟩
abbrev S2048x20 : Shape := ⟨2, ![2048, 20]⟩
abbrev S1x10 : Shape := ⟨2, ![1, 10]⟩
abbrev S128x2048 : Shape := ⟨2, ![128, 2048]⟩
abbrev S128x10 : Shape := ⟨2, ![128, 10]⟩
abbrev S128 : Shape := ⟨1, ![128]⟩
abbrev S128x1 : Shape := ⟨2, ![128, 1]⟩

abbrev nBuf : Space → Nat
  | .hbm => 64
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2x65536, .i32⟩
  | .hbm, ⟨2, _⟩ => ⟨S2048x10, .f32⟩
  | .hbm, ⟨3, _⟩ => ⟨S2048x10, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S1x65536, .i32⟩
  | .hbm, ⟨8, _⟩ => ⟨S65536, .i32⟩
  | .hbm, ⟨9, _⟩ => ⟨S1x65536, .i32⟩
  | .hbm, ⟨10, _⟩ => ⟨S65536, .i32⟩
  | .hbm, ⟨11, _⟩ => ⟨S_, .f32⟩
  | .hbm, ⟨12, _⟩ => ⟨S65536, .f32⟩
  | .hbm, ⟨13, _⟩ => ⟨S_, .f32⟩
  | .hbm, ⟨14, _⟩ => ⟨S2048, .f32⟩
  | .hbm, ⟨15, _⟩ => ⟨S65536x1, .i32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .i1⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S_, .i32⟩
  | .hbm, ⟨29, _⟩ => ⟨S65536, .i32⟩
  | .hbm, ⟨30, _⟩ => ⟨S65536, .i1⟩
  | .hbm, ⟨31, _⟩ => ⟨S_, .i32⟩
  | .hbm, ⟨32, _⟩ => ⟨S65536, .i32⟩
  | .hbm, ⟨33, _⟩ => ⟨S65536, .i32⟩
  | .hbm, ⟨34, _⟩ => ⟨S65536, .i32⟩
  | .hbm, ⟨35, _⟩ => ⟨S65536x1, .i32⟩
  | .hbm, ⟨36, _⟩ => ⟨S65536, .f32⟩
  | .hbm, ⟨37, _⟩ => ⟨S65536, .f32⟩
  | .hbm, ⟨38, _⟩ => ⟨S_, .i32⟩
  | .hbm, ⟨39, _⟩ => ⟨S65536, .i32⟩
  | .hbm, ⟨40, _⟩ => ⟨S65536, .i1⟩
  | .hbm, ⟨41, _⟩ => ⟨S_, .i32⟩
  | .hbm, ⟨42, _⟩ => ⟨S65536, .i32⟩
  | .hbm, ⟨43, _⟩ => ⟨S65536, .i32⟩
  | .hbm, ⟨44, _⟩ => ⟨S65536, .i32⟩
  | .hbm, ⟨45, _⟩ => ⟨S65536x1, .i32⟩
  | .hbm, ⟨46, _⟩ => ⟨S65536, .f32⟩
  | .hbm, ⟨47, _⟩ => ⟨S65536, .f32⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S65536, .i32⟩
  | .hbm, ⟨52, _⟩ => ⟨S_, .f32⟩
  | .hbm, ⟨53, _⟩ => ⟨S4194304, .f32⟩
  | .hbm, ⟨54, _⟩ => ⟨S65536x1, .i32⟩
  | .hbm, ⟨55, _⟩ => ⟨S4194304, .f32⟩
  | .hbm, ⟨56, _⟩ => ⟨S2048x2048, .f32⟩
  | .hbm, ⟨57, _⟩ => ⟨S2048x20, .f32⟩
  | .hbm, ⟨58, _⟩ => ⟨S2048x20, .f32⟩
  | .hbm, ⟨59, _⟩ => ⟨S2048x10, .f32⟩
  | .hbm, ⟨60, _⟩ => ⟨S2048x10, .f32⟩
  | .hbm, ⟨61, _⟩ => ⟨S1x10, .f32⟩
  | .hbm, ⟨62, _⟩ => ⟨S1x10, .f32⟩
  | .hbm, ⟨63, _⟩ => ⟨S2048x10, .f32⟩
  | .local _ .vmem, ⟨0, _⟩ => ⟨S128x2048, .f32⟩
  | .local _ .vmem, ⟨1, _⟩ => ⟨S128x2048, .f32⟩
  | .local _ .vmem, ⟨2, _⟩ => ⟨S2048x10, .f32⟩
  | .local _ .vmem, ⟨3, _⟩ => ⟨S2048x10, .f32⟩
  | .local _ .vmem, ⟨4, _⟩ => ⟨S1x10, .f32⟩
  | .local _ .vmem, ⟨5, _⟩ => ⟨S10x10, .f32⟩
  | .local _ .vmem, ⟨6, _⟩ => ⟨S1x10, .f32⟩
  | .local _ .vmem, ⟨7, _⟩ => ⟨S128x10, .f32⟩
  | .local _ .vmem, ⟨8, _⟩ => ⟨S128x10, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v9 : Index := Scalar.indexCast v1
  let c0_3 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S_S2048 : S_.BroadcastsInDim S2048 (![] : Fin 0 → Fin S2048.rank)
  bcast_S65536_S65536x1_0 : S65536.BroadcastsInDim S65536x1 (![0] : Fin 1 → Fin S65536x1.rank)
  bcast_S_S4194304 : S_.BroadcastsInDim S4194304 (![] : Fin 0 → Fin S4194304.rank)
  shapeCasts_S4194304_S2048x2048 : S4194304.ShapeCasts S2048x2048
  concatenates_S2048x10_S2048x10_S2048x20_d1 : Shape.Concatenates [S2048x10, S2048x10] S2048x20 1
  slices_S2048x20_S2048x10_0_0 : S2048x20.Slices ![0, 0] S2048x10
  slices_S2048x20_S2048x10_0_10 : S2048x20.Slices ![0, 10] S2048x10
  shapeCasts_S10_S1x10 : S10.ShapeCasts S1x10
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  bitsLt_bf16_f32 : FTy.bits .bf16 < FTy.bits .f32
  inb_S2048x10_S2048x10_0_0 : ∀ a, (![0, 0] : Fin 2 → Nat) a + S2048x10.size a ≤ S2048x10.size a
  h_S2048x10 : 0 < S2048x10.numel
  shapeCasts_S2048x10_S2048x10 : S2048x10.ShapeCasts S2048x10
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S10x10_S10x10_0_0 : ∀ a, (![0, 0] : Fin 2 → Nat) a + S10x10.size a ≤ S10x10.size a
  h_S10x10 : 0 < S10x10.numel
  reduces_S128x10_S128 : S128x10.Reduces [1] S128
  shapeCasts_S128_S128x1 : S128.ShapeCasts S128x1
  broadcasts_S128x1_S128x10 : S128x1.Broadcasts S128x10
  inb_S128x10_S128x10_0_0 : ∀ a, (![0, 0] : Fin 2 → Nat) a + S128x10.size a ≤ S128x10.size a
  scatter_S2048_S65536x1_S65536_n_0_0_1_wf : ScatterDims.WF S2048 S65536x1 S65536 [] [0] [0] 1
  gather_S2048_S65536x1_S65536_n_0_n_n_0_1_1_wf : GatherDims.WF S2048 S65536x1 S65536 [] [0] [] [0] [] 1 ![1]
  scatter_S4194304_S65536x1_S65536_n_0_0_1_wf : ScatterDims.WF S4194304 S65536x1 S65536 [] [0] [0] 1
  dot_S2048x2048_S2048x20_S2048x20_1_0_0_1_n_n_wf : DotDims.WF S2048x2048 S2048x20 S2048x20 [1] [0] [0] [1] [] []
  dot_S128x2048_S2048x10_S128x10_1_0_0_1_n_n_wf : DotDims.WF S128x2048 S2048x10 S128x10 [1] [0] [0] [1] [] []
  dot_S128x10_S10x10_S128x10_1_0_0_1_n_n_wf : DotDims.WF S128x10 S10x10 S128x10 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x10.size a ≤ S2048x10.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S2048x2048.size a
  hwx0_0 : ∀ i : grid0.Coords, EltTy.bits .f32 = 32 ∨ (Rect.block (s := S2048x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x10.size a ≤ S2048x10.size a
  hwx0_1 : ∀ i : grid0.Coords, EltTy.bits .f32 = 32 ∨ (Rect.block (s := S2048x10) S2048x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x10.size a ≤ S2048x10.size a
  hwx0_2 : ∀ i : grid0.Coords, EltTy.bits .f32 = 32 ∨ (Rect.block (s := S2048x10) S2048x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10.size a ≤ S1x10.size a
  hwx0_3 : ∀ i : grid0.Coords, EltTy.bits .f32 = 32 ∨ (Rect.block (s := S1x10) S1x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x10.size a ≤ S10x10.size a
  hwx0_4 : ∀ i : grid0.Coords, EltTy.bits .f32 = 32 ∨ (Rect.block (s := S10x10) S10x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x10.size a ≤ S1x10.size a
  hwx0_5 : ∀ i : grid0.Coords, EltTy.bits .f32 = 32 ∨ (Rect.block (s := S1x10) S1x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x10.size a ≤ S2048x10.size a
  hwx0_6 : ∀ i : grid0.Coords, EltTy.bits .f32 = 32 ∨ (Rect.block (s := S2048x10) S128x10.size (cc0_transform_6 i) (hinb0_6 i)).WholeWords (EltTy.packing .f32)

variable [Facts₀]

def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf
def gather_S2048_S65536x1_S65536_n_0_n_n_0_1_1 : GatherDims S2048 S65536x1 S65536 where
  offsetDims := []
  collapsedSliceDims := [0]
  operandBatchingDims := []
  startIndicesBatchingDims := []
  startIndexMap := [0]
  indexVectorDim := 1
  sliceSizes := ![1]
  wf := gather_S2048_S65536x1_S65536_n_0_n_n_0_1_1_wf
def scatter_S4194304_S65536x1_S65536_n_0_0_1 : ScatterDims S4194304 S65536x1 S65536 where
  updateWindowDims := []
  insertedWindowDims := [0]
  scatterDimsToOperandDims := [0]
  indexVectorDim := 1
  wf := scatter_S4194304_S65536x1_S65536_n_0_0_1_wf
def dot_S2048x2048_S2048x20_S2048x20_1_0_0_1_n_n : DotDims S2048x2048 S2048x20 S2048x20 where
  lhsContracting := [1]
  rhsContracting := [0]
  lhsNonContracting := [0]
  rhsNonContracting := [1]
  lhsBatch := []
  rhsBatch := []
  wf := dot_S2048x2048_S2048x20_S2048x20_1_0_0_1_n_n_wf
def dot_S128x2048_S2048x10_S128x10_1_0_0_1_n_n : DotDims S128x2048 S2048x10 S128x10 where
  lhsContracting := [1]
  rhsContracting := [0]
  lhsNonContracting := [0]
  rhsNonContracting := [1]
  lhsBatch := []
  rhsBatch := []
  wf := dot_S128x2048_S2048x10_S128x10_1_0_0_1_n_n_wf
def dot_S128x10_S10x10_S128x10_1_0_0_1_n_n : DotDims S128x10 S10x10 S128x10 where
  lhsContracting := [1]
  rhsContracting := [0]
  lhsNonContracting := [0]
  rhsNonContracting := [1]
  lhsBatch := []
  rhsBatch := []
  wf := dot_S128x10_S10x10_S128x10_1_0_0_1_n_n_wf

abbrev win0_0 : Pipeline.Window sig grid0 :=
  Pipeline.Window.ofSpec (Memref.whole main_v36) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S2048x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S2048x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S10x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S1x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S128x10.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S2x65536 : Shape := ⟨2, ![2, 65536]⟩
abbrev S2048x10 : Shape := ⟨2, ![2048, 10]⟩
abbrev S10 : Shape := ⟨1, ![10]⟩
abbrev S10x10 : Shape := ⟨2, ![10, 10]⟩
abbrev S1x65536 : Shape := ⟨2, ![1, 65536]⟩
abbrev S65536 : Shape := ⟨1, ![65536]⟩
abbrev S_ : Shape := ⟨0, ![]⟩
abbrev S2048 : Shape := ⟨1, ![2048]⟩
abbrev S65536x1 : Shape := ⟨2, ![65536, 1]⟩
abbrev S65536x2048 : Shape := ⟨2, ![65536, 2048]⟩
abbrev S1x10 : Shape := ⟨2, ![1, 10]⟩
abbrev S2048x1 : Shape := ⟨2, ![2048, 1]⟩

abbrev nBuf : Space → Nat
  | .hbm => 96
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2x65536, .i32⟩
  | .hbm, ⟨2, _⟩ => ⟨S2048x10, .f32⟩
  | .hbm, ⟨3, _⟩ => ⟨S2048x10, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S1x65536, .i32⟩
  | .hbm, ⟨8, _⟩ => ⟨S65536, .i32⟩
  | .hbm, ⟨9, _⟩ => ⟨S1x65536, .i32⟩
  | .hbm, ⟨10, _⟩ => ⟨S65536, .i32⟩
  | .hbm, ⟨11, _⟩ => ⟨S1x65536, .i32⟩
  | .hbm, ⟨12, _⟩ => ⟨S65536, .i32⟩
  | .hbm, ⟨13, _⟩ => ⟨S1x65536, .i32⟩
  | .hbm, ⟨14, _⟩ => ⟨S65536, .i32⟩
  | .hbm, ⟨15, _⟩ => ⟨S_, .f32⟩
  | .hbm, ⟨16, _⟩ => ⟨S65536, .f32⟩
  | .hbm, ⟨17, _⟩ => ⟨S_, .f32⟩
  | .hbm, ⟨18, _⟩ => ⟨S2048, .f32⟩
  | .hbm, ⟨19, _⟩ => ⟨S65536x1, .i32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .i1⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .i32⟩
  | .hbm, ⟨33, _⟩ => ⟨S65536, .i32⟩
  | .hbm, ⟨34, _⟩ => ⟨S65536, .i1⟩
  | .hbm, ⟨35, _⟩ => ⟨S_, .i32⟩
  | .hbm, ⟨36, _⟩ => ⟨S65536, .i32⟩
  | .hbm, ⟨37, _⟩ => ⟨S65536, .i32⟩
  | .hbm, ⟨38, _⟩ => ⟨S65536, .i32⟩
  | .hbm, ⟨39, _⟩ => ⟨S65536x1, .i32⟩
  | .hbm, ⟨40, _⟩ => ⟨S65536, .f32⟩
  | .hbm, ⟨41, _⟩ => ⟨S65536, .f32⟩
  | .hbm, ⟨42, _⟩ => ⟨S_, .i32⟩
  | .hbm, ⟨43, _⟩ => ⟨S65536, .i32⟩
  | .hbm, ⟨44, _⟩ => ⟨S65536, .i1⟩
  | .hbm, ⟨45, _⟩ => ⟨S_, .i32⟩
  | .hbm, ⟨46, _⟩ => ⟨S65536, .i32⟩
  | .hbm, ⟨47, _⟩ => ⟨S65536, .i32⟩
  | .hbm, ⟨48, _⟩ => ⟨S65536, .i32⟩
  | .hbm, ⟨49, _⟩ => ⟨S65536x1, .i32⟩
  | .hbm, ⟨50, _⟩ => ⟨S65536, .f32⟩
  | .hbm, ⟨51, _⟩ => ⟨S65536, .f32⟩
  | .hbm, ⟨52, _⟩ => ⟨S65536x1, .f32⟩
  | .hbm, ⟨53, _⟩ => ⟨S_, .i32⟩
  | .hbm, ⟨54, _⟩ => ⟨S65536, .i32⟩
  | .hbm, ⟨55, _⟩ => ⟨S65536, .i1⟩
  | .hbm, ⟨56, _⟩ => ⟨S_, .i32⟩
  | .hbm, ⟨57, _⟩ => ⟨S65536, .i32⟩
  | .hbm, ⟨58, _⟩ => ⟨S65536, .i32⟩
  | .hbm, ⟨59, _⟩ => ⟨S65536, .i32⟩
  | .hbm, ⟨60, _⟩ => ⟨S65536x1, .i32⟩
  | .hbm, ⟨61, _⟩ => ⟨S65536x2048, .f32⟩
  | .hbm, ⟨62, _⟩ => ⟨S65536x2048, .f32⟩
  | .hbm, ⟨63, _⟩ => ⟨S65536x2048, .f32⟩
  | .hbm, ⟨64, _⟩ => ⟨S_, .f32⟩
  | .hbm, ⟨65, _⟩ => ⟨S2048x2048, .f32⟩
  | .hbm, ⟨66, _⟩ => ⟨S65536x1, .i32⟩
  | .hbm, ⟨67, _⟩ => ⟨S2048x2048, .f32⟩
  | .hbm, ⟨68, _⟩ => ⟨S2048x10, .f32⟩
  | .hbm, ⟨69, _⟩ => ⟨S2048x10, .f32⟩
  | .hbm, ⟨70, _⟩ => ⟨S2048x10, .f32⟩
  | .hbm, ⟨71, _⟩ => ⟨S1x10, .f32⟩
  | .hbm, ⟨72, _⟩ => ⟨S2048x10, .f32⟩
  | .hbm, ⟨73, _⟩ => ⟨S2048x10, .f32⟩
  | .hbm, ⟨74, _⟩ => ⟨S_, .f32⟩
  | .hbm, ⟨75, _⟩ => ⟨S2048x10, .f32⟩
  | .hbm, ⟨76, _⟩ => ⟨S2048x10, .f32⟩
  | .hbm, ⟨77, _⟩ => ⟨S2048x10, .f32⟩
  | .hbm, ⟨78, _⟩ => ⟨S1x10, .f32⟩
  | .hbm, ⟨79, _⟩ => ⟨S2048x10, .f32⟩
  | .hbm, ⟨80, _⟩ => ⟨S2048x10, .f32⟩
  | .hbm, ⟨81, _⟩ => ⟨S_, .f32⟩
  | .hbm, ⟨82, _⟩ => ⟨S2048, .f32⟩
  | .hbm, ⟨83, _⟩ => ⟨S_, .f32⟩
  | .hbm, ⟨84, _⟩ => ⟨S2048, .f32⟩
  | .hbm, ⟨85, _⟩ => ⟨S2048, .f32⟩
  | .hbm, ⟨86, _⟩ => ⟨S2048x1, .f32⟩
  | .hbm, ⟨87, _⟩ => ⟨S2048x10, .f32⟩
  | .hbm, ⟨88, _⟩ => ⟨S2048x10, .f32⟩
  | .hbm, ⟨89, _⟩ => ⟨S2048x10, .f32⟩
  | .hbm, ⟨90, _⟩ => ⟨S_, .f32⟩
  | .hbm, ⟨91, _⟩ => ⟨S2048, .f32⟩
  | .hbm, ⟨92, _⟩ => ⟨S2048x1, .f32⟩
  | .hbm, ⟨93, _⟩ => ⟨S2048x1, .f32⟩
  | .hbm, ⟨94, _⟩ => ⟨S2048x10, .f32⟩
  | .hbm, ⟨95, _⟩ => ⟨S2048x10, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call1_cst : Ref sig .tc := ⟨.hbm, 74, rfl⟩
abbrev main_call1_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call2_cst : Ref sig .tc := ⟨.hbm, 81, rfl⟩
abbrev main_call2_v0 : Ref sig .tc := ⟨.hbm, 82, rfl⟩
abbrev main_call2_cst_0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_v6 : Ref sig .tc := ⟨.hbm, 89, rfl⟩
abbrev main_call2_cst_1 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_v58 : Ref sig .tc := ⟨.hbm, 95, rfl⟩

abbrev nD : Nat := 1
abbrev τ : Topo := Topo.v7x

variable {F : FTy → Type} [FloatOps F]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S_S2048 : S_.BroadcastsInDim S2048 (![] : Fin 0 → Fin S2048.rank)
  bcast_S65536_S65536x1_0 : S65536.BroadcastsInDim S65536x1 (![0] : Fin 1 → Fin S65536x1.rank)
  bcast_S65536x1_S65536x2048_0_1 : S65536x1.BroadcastsInDim S65536x2048 (![0, 1] : Fin 2 → Fin S65536x2048.rank)
  bcast_S_S2048x2048 : S_.BroadcastsInDim S2048x2048 (![] : Fin 0 → Fin S2048x2048.rank)
  bcast_S10_S1x10_1 : S10.BroadcastsInDim S1x10 (![1] : Fin 1 → Fin S1x10.rank)
  bcast_S1x10_S2048x10_0_1 : S1x10.BroadcastsInDim S2048x10 (![0, 1] : Fin 2 → Fin S2048x10.rank)
  bcast_S_S2048x10 : S_.BroadcastsInDim S2048x10 (![] : Fin 0 → Fin S2048x10.rank)
  reducesTo_S2048x10_S2048_d1 : S2048x10.ReducesTo [1] S2048
  h_S_ : 0 < S_.numel
  bcast_S2048_S2048x1_0 : S2048.BroadcastsInDim S2048x1 (![0] : Fin 1 → Fin S2048x1.rank)
  bcast_S2048x1_S2048x10_0_1 : S2048x1.BroadcastsInDim S2048x10 (![0, 1] : Fin 2 → Fin S2048x10.rank)
  scatter_S2048_S65536x1_S65536_n_0_0_1_wf : ScatterDims.WF S2048 S65536x1 S65536 [] [0] [0] 1
  gather_S2048_S65536x1_S65536_n_0_n_n_0_1_1_wf : GatherDims.WF S2048 S65536x1 S65536 [] [0] [] [0] [] 1 ![1]
  gather_S2048x2048_S65536x1_S65536x2048_1_0_n_n_0_1_12048_wf : GatherDims.WF S2048x2048 S65536x1 S65536x2048 [1] [0] [] [0] [] 1 ![1, 2048]
  scatter_S2048x2048_S65536x1_S65536x2048_1_0_0_1_wf : ScatterDims.WF S2048x2048 S65536x1 S65536x2048 [1] [0] [0] 1
  dot_S2048x2048_S2048x10_S2048x10_1_0_0_1_n_n_wf : DotDims.WF S2048x2048 S2048x10 S2048x10 [1] [0] [0] [1] [] []
  dot_S2048x10_S10x10_S2048x10_1_0_0_1_n_n_wf : DotDims.WF S2048x10 S10x10 S2048x10 [1] [0] [0] [1] [] []

variable [Facts₀]

def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf
def gather_S2048_S65536x1_S65536_n_0_n_n_0_1_1 : GatherDims S2048 S65536x1 S65536 where
  offsetDims := []
  collapsedSliceDims := [0]
  operandBatchingDims := []
  startIndicesBatchingDims := []
  startIndexMap := [0]
  indexVectorDim := 1
  sliceSizes := ![1]
  wf := gather_S2048_S65536x1_S65536_n_0_n_n_0_1_1_wf
def gather_S2048x2048_S65536x1_S65536x2048_1_0_n_n_0_1_12048 : GatherDims S2048x2048 S65536x1 S65536x2048 where
  offsetDims := [1]
  collapsedSliceDims := [0]
  operandBatchingDims := []
  startIndicesBatchingDims := []
  startIndexMap := [0]
  indexVectorDim := 1
  sliceSizes := ![1, 2048]
  wf := gather_S2048x2048_S65536x1_S65536x2048_1_0_n_n_0_1_12048_wf
def scatter_S2048x2048_S65536x1_S65536x2048_1_0_0_1 : ScatterDims S2048x2048 S65536x1 S65536x2048 where
  updateWindowDims := [1]
  insertedWindowDims := [0]
  scatterDimsToOperandDims := [0]
  indexVectorDim := 1
  wf := scatter_S2048x2048_S65536x1_S65536x2048_1_0_0_1_wf
def dot_S2048x2048_S2048x10_S2048x10_1_0_0_1_n_n : DotDims S2048x2048 S2048x10 S2048x10 where
  lhsContracting := [1]
  rhsContracting := [0]
  lhsNonContracting := [0]
  rhsNonContracting := [1]
  lhsBatch := []
  rhsBatch := []
  wf := dot_S2048x2048_S2048x10_S2048x10_1_0_0_1_n_n_wf
def dot_S2048x10_S10x10_S2048x10_1_0_0_1_n_n : DotDims S2048x10 S10x10 S2048x10 where
  lhsContracting := [1]
  rhsContracting := [0]
  lhsNonContracting := [0]
  rhsNonContracting := [1]
  lhsBatch := []
  rhsBatch := []
  wf := dot_S2048x10_S10x10_S2048x10_1_0_0_1_n_n_wf

class Facts : Prop extends Facts₀ where

variable [Facts]
-- ==== Proof.HeadSpec.lean ====
/-
  The mathematics both programs compute, stated once over plain functions.

  A node's hidden row `h : Fin 10 → EReal` goes through the classifier head: the rectifier `max · 0`, the dense
  layer `z j = ∑ k, max (h k) 0 · Wf k j + bf j`, and the log-softmax taken with the row's maximum subtracted,
  `(z j − M) − log ∑ j', exp (z j' − M)` where `M` is the fold of `max` over the row from −∞.
  The graph enters through the edge list: edge `e` has a source node and a target node, read off the two rows
  of the integer input; an edge list is in range when every entry is a node number below 2048.
-/
import Idealize.ShloMosaic.PureOps.Ideal.Laws
import Idealize.ShloMosaic.Lib.ValueIdx

noncomputable section

namespace Cert.Cheb

open Idealize.ShloMosaic Idealize.ShloMosaic.ValueIdx

/-- The dense layer on the rectified hidden row: `z j = ∑ k, max (h k) 0 · Wf k j + bf j`. -/
def logit (Wf : Fin 10 → Fin 10 → EReal) (bf : Fin 10 → EReal) (h : Fin 10 → EReal) (j : Fin 10) : EReal :=
  (∑ k : Fin 10, max (h k) 0 * Wf k j) + bf j

/-- A row's maximum as both programs take it: the fold of `max` over the ten entries from the word of −∞. -/
def rowMax (z : Fin 10 → EReal) : EReal :=
  (Finset.univ : Finset (Fin 10)).fold max (Ideal.ofBits .f32 0xFF800000#32) z

/-- The classifier head of one node: log-softmax of the logits, the row maximum subtracted first. -/
def head (Wf : Fin 10 → Fin 10 → EReal) (bf : Fin 10 → EReal) (h : Fin 10 → EReal) (j : Fin 10) : EReal :=
  (logit Wf bf h j - rowMax (logit Wf bf h))
    - Ideal.log (∑ j' : Fin 10, Ideal.exp (logit Wf bf h j' - rowMax (logit Wf bf h)))

/-- Taking the maximum once more with the fold's own starting value changes nothing: the fold is at least its start. -/
theorem max_init_rowMax (z : Fin 10 → EReal) : max (Ideal.ofBits .f32 0xFF800000#32) (rowMax z) = rowMax z :=
  max_eq_right ((Finset.le_fold_max _).2 (Or.inl le_rfl))

/-- The head depends on the hidden row only through its entries. -/
theorem head_congr (Wf : Fin 10 → Fin 10 → EReal) (bf : Fin 10 → EReal) {h h' : Fin 10 → EReal} (e : ∀ g, h g = h' g)
    (j : Fin 10) : head Wf bf h j = head Wf bf h' j := by
  rw [show h = h' from funext e]

/-- The edge list: a 2 × 65536 array of 32-bit words, row 0 the sources, row 1 the targets. -/
abbrev Edges : Type := (⟨2, ![2, 65536]⟩ : Shape).Idx → BitVec 32

/-- The node an entry of the edge list names (row `a`, edge `e`), as a node number; total by reduction mod 2048,
    which is the identity on an in-range list. -/
def node (x1 : Edges) (a : Fin 2) (e : Fin 65536) : Fin 2048 :=
  ⟨(x1 (ix2 a e)).toNat % 2048, Nat.mod_lt _ (by norm_num)⟩

/-- Every entry of the edge list is a node number: as an unsigned word it is below 2048 (so as a signed word it is
    nonnegative and below 2048 too). -/
def InRange (x1 : Edges) : Prop := ∀ (a : Fin 2) (e : Fin 65536), (x1 (ix2 a e)).toNat < 2048

theorem node_val {x1 : Edges} (h : InRange x1) (a : Fin 2) (e : Fin 65536) : (node x1 a e).val = (x1 (ix2 a e)).toNat :=
  Nat.mod_eq_of_lt (h a e)

end Cert.Cheb

end
-- ==== Proof.PreDecode.lean ====
/-
  What the precondition says, element by element.

  The precondition is a conjunction of whole-array tests: `|v| < +∞` at every entry of each float input, and
  `0 ≤ v` and `v < 2048` (signed compares) at every entry of the edge list. Read back: the features `x` and the
  projection `W1` hold real numbers, and every entry of the edge list is a node number.
-/
import proofs.«405329_j49641232007490_3_alg».proof.Pre_finite_inputs
import proofs.«405329_j49641232007490_3_alg».proof.Proof.Gen.Pre_finite_inputs
import proofs.«405329_j49641232007490_3_alg».proof.Proof.HeadSpec
import Idealize.ShloMosaic.Lib.ReduceAll
import Idealize.ShloMosaic.Lib.StableHlo.Predicate

noncomputable section

namespace Cert.Cheb.PreDecode

open Cert.Pre_finite_inputs Idealize.ShloMosaic Idealize.ShloMosaic.ValueIdx Cert.Cheb

/-- The rank-0 shape has one index. -/
local instance subsingleton_S_ : Subsingleton S_.Idx := ⟨fun a b => funext fun d => d.elim0⟩

/-- A 32-bit word in [0, 2048) as a signed number is below 2048 as an unsigned one. -/
theorem toNat_lt_of_signed (w : BitVec 32) (h0 : IntOp.cmpi .sge w 0#32 = 1#1)
    (h1 : IntOp.cmpi .slt w 2048#32 = 1#1) : w.toNat < 2048 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

/-- An extended real whose absolute value `max v (-v)` is below +∞ is a real number: neither infinity passes the test. -/
theorem real_of_abs_lt (v : EReal)
    (h : FloatOps.cmpf (F := Ideal) (φ := .f32) .olt (FloatOps.hostAbsf (F := Ideal) (φ := .f32) v)
      (FloatOps.ofBits (F := Ideal) .f32 0x7F800000#32) = 1#1) :
    ∃ r : ℝ, v = (r : EReal) := by
  have htop : Ideal.ofBits .f32 0x7F800000#32 = ⊤ := by simp [Ideal.ofBits, Ideal.ieee]
  change Ideal.cmp .olt (max (v : EReal) (-(v : EReal))) (Ideal.ofBits .f32 0x7F800000#32) = 1#1 at h
  rw [htop] at h
  unfold Ideal.cmp at h
  rw [StableHlo.Predicate.ofBool_eq_one_iff] at h
  simp only [decide_eq_true_eq] at h
  induction v using EReal.rec with
  | bot => simp at h
  | coe r => exact ⟨r, rfl⟩
  | top => simp at h

/-- Where the precondition is all ones: the features and the second projection are real-valued, and the edge list is in range. -/
theorem decode (x0 : FVec Ideal S2048x2048 .f32) (x1 : IVec S2x65536 32) (x2 x3 : FVec Ideal S2048x10 .f32)
    (x4 : FVec Ideal S10 .f32) (x5 : FVec Ideal S10x10 .f32) (x6 : FVec Ideal S10 .f32)
    (h : Cert.Pre_finite_inputs.fn (F := Ideal) x0 x1 x2 x3 x4 x5 x6 = fun _ => 1#1) :
    (∀ i, ∃ r : ℝ, x0 i = (r : EReal)) ∧ (∀ i, ∃ r : ℝ, x3 i = (r : EReal)) ∧ InRange x1 := by
  have h0 := congrFun h ValueIdx.ix0
  dsimp only [fn, fn_part1, fn_part2] at h0
  simp only [andi, IntOp.andi_eq_one] at h0
  obtain ⟨⟨⟨⟨⟨⟨⟨ha0, -⟩, ha3⟩, -⟩, -⟩, -⟩, hge⟩, hlt⟩ := h0
  refine ⟨fun i => ?_, fun i => ?_, fun a e => ?_⟩
  · have e := Host.reduce_andi_all _ _ _ _ _ ha0 i
    exact real_of_abs_lt (x0 i) e
  · have e := Host.reduce_andi_all _ _ _ _ _ ha3 i
    exact real_of_abs_lt (x3 i) e
  · have e0 := Host.reduce_andi_all _ _ _ _ _ hge (ix2 a e)
    have e1 := Host.reduce_andi_all _ _ _ _ _ hlt (ix2 a e)
    exact toNat_lt_of_signed (x1 (ix2 a e)) e0 e1

end Cert.Cheb.PreDecode

end
-- ==== Proof.KernelPiece.lean ====
/-
  What one grid point's body leaves in the output's staging buffer.

  The body stores once, through the whole 128 × 10 rectangle at offset (0, 0), the value it computed from its six
  loads; so what the buffer holds afterwards, read back, is that value. Five of the loads read a whole staging
  buffer (the adjacency block, `x·W1`, the two bias rows, `Wf`); the sixth reads 128 rows of the resident `x·W0`
  starting at the row offset the body computes from the grid coordinate.
-/
import proofs.«405329_j49641232007490_3_alg».proof.Proof.Gen.KernelIdeal.Frame
import Idealize.ShloMosaic.Lib.Pipeline.Value

set_option maxRecDepth 16384

noncomputable section

namespace Cert.Cheb.KernelPiece

open Cert.KernelIdeal Cert.KernelIdeal.Gen Idealize.ShloMosaic Idealize.ShloMosaic.TcCoe Idealize.ShloMosaic.Tactic Idealize.SL.Sem

variable {F : FTy → Type} [FloatOps F]

/-- The zero offsets of a rank-2 rectangle, however they are spelt. -/
theorem zero_offsets : (![0, 0] : Fin 2 → Nat) = fun _ => 0 := by
  funext a; match a with | ⟨0, _⟩ => rfl | ⟨1, _⟩ => rfl

/-- The 128 rows of the resident `x·W0` the body loads at grid point `i`. -/
abbrev rowBlock (i : grid0.Coords) (x1 : Vec F S2048x10 .f32) : Vec F S128x10 .f32 :=
  View.ld x1 (Rect.unit (s := S2048x10) (k0_off1 i) S128x10.size (k0_off1_inb i))

/-- The output buffer after the body, read back, is the body's stored value of its loads. -/
theorem out_eq_pay (c : Dev nD) (i : grid0.Coords) (arg1 : Memref sig .tc .vmem S128x2048 .f32) (harg1 : arg1.IsWhole) (arg2 : Memref sig .tc .vmem S2048x10 .f32) (harg2 : arg2.IsWhole) (arg3 : Memref sig .tc .vmem S2048x10 .f32) (harg3 : arg3.IsWhole) (arg4 : Memref sig .tc .vmem S1x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S128x10 .f32) (harg7 : arg7.IsWhole)
    (x0 : Vec F S128x2048 .f32) (x1 : Vec F S2048x10 .f32) (x2 : Vec F S2048x10 .f32) (x3 : Vec F S1x10 .f32) (x4 : Vec F S10x10 .f32) (x5 : Vec F S1x10 .f32) :
    out0_A_6 (F := F) c i arg1 harg1 arg2 harg2 arg3 harg3 arg4 harg4 arg5 harg5 arg6 harg6 arg7 harg7 x0 x1 x2 x3 x4 x5 = k0_pay1 x0 x2 (rowBlock i x1) x3 x4 x5 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  sl_unfold_words
  rw [View.canon_unit_zero (S := S128x10) zero_offsets]
  simp only [View.readAt_eq_ld, harg1.read_unread, harg2.read_unread, harg3.read_unread, harg4.read_unread, harg5.read_unread, harg6.read_unread,
    View.ld_unit_zero (S := S128x2048) zero_offsets, View.ld_unit_zero (S := S2048x10) zero_offsets,
    View.ld_unit_zero (S := S1x10) zero_offsets, View.ld_unit_zero (S := S10x10) zero_offsets]
  rfl

end Cert.Cheb.KernelPiece

end
-- ==== Proof.LibColumnCast.lean ====
/-
  A vector stood up as a column: an `[a]` array cast to `[a, 1]` reads, at `(i, u)`, the operand at `i`, whatever
  the unit coordinate `u`.  (The trailing-axis companion of the library's leading-axis form `shapeCast_a_1a_apply`:
  what `keepdims=True` does to a row reduction's result.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`: both indices have row-major position
    `i`, since the unit coordinate is `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibBroadcastColumn.lean ====
/-
  One column broadcast over many: a `[a, 1]` array broadcast to `[a, b]` reads, at `(p, c)`, the operand's one
  column at row `p`.  (The companion of the library's row form `broadcastTo_1b_ab_apply`: a per-row bias added to
  every column of a matrix.)
-/
import Idealize.ShloMosaic.Lib.Pipeline.Value
import Idealize.ShloMosaic.Lib.ValueIdx

namespace Idealize.ShloMosaic.ValueIdx

variable {α : Type}

/-- A `[a, 1]` array broadcast to `[a, b]` reads, at `(p, c)`, the operand's one column at `p`: the row axis is kept
    (or has extent one, and then `p = 0`), the unit column axis reads its only index. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelHead.lean ====
/-
  The kernel body's stored value at one entry of its 128 × 10 output block.

  At row `p` of the block the body forms the hidden row
  `h g = (xw0 p g + ∑ k, a p k · xw1 k g) + b g` — the row block of `x·W0` it loaded, plus the adjacency block
  times `x·W1` (a matrix product into a zero accumulator; the narrowing of the factors to bf16 is the identity on
  exact values), plus the bias row broadcast down the block — and then the classifier head of that row.
-/
import proofs.«405329_j49641232007490_3_alg».proof.Proof.Gen.KernelIdeal.Skeleton
import proofs.«405329_j49641232007490_3_alg».proof.Proof.HeadSpec
import Idealize.ShloMosaic.Lib.Pipeline.Value
import Idealize.ShloMosaic.Lib.ValueLayout
import proofs.«405329_j49641232007490_3_alg».proof.Proof.LibColumnCast
import proofs.«405329_j49641232007490_3_alg».proof.Proof.LibBroadcastColumn
import Idealize.ShloMosaic.Lib.ValueIdx
import Idealize.ShloMosaic.PureOps.Ideal.Laws
import Mathlib.Algebra.BigOperators.Group.Finset.Basic

noncomputable section

namespace Cert.Cheb.KernelHead

open Cert.KernelIdeal Cert.KernelIdeal.Gen Idealize.ShloMosaic Idealize.ShloMosaic.ValueIdx Cert.Cheb

/-! ## The two matrix products read at an entry -/

/-- Left operand of the first product, row axis: the output entry's row. -/
theorem lhsA_0 (i : S128x10.Idx) (q : dot_S128x2048_S2048x10_S128x10_1_0_0_1_n_n.contr.Idx) :
    (dot_S128x2048_S2048x10_S128x10_1_0_0_1_n_n.lhsIdx i q 0).val = (i 0).val := by
  unfold DotDims.lhsIdx
  rw [dif_neg (show ¬(0 : Fin S128x2048.rank) ∈ dot_S128x2048_S2048x10_S128x10_1_0_0_1_n_n.lhsBatch by decide), dif_pos (show (0 : Fin S128x2048.rank) ∈ dot_S128x2048_S2048x10_S128x10_1_0_0_1_n_n.lhsNonContracting by decide)]
  rfl
/-- Left operand of the first product, column axis: the contraction position. -/
theorem lhsA_1 (i : S128x10.Idx) (q : dot_S128x2048_S2048x10_S128x10_1_0_0_1_n_n.contr.Idx) :
    (dot_S128x2048_S2048x10_S128x10_1_0_0_1_n_n.lhsIdx i q 1).val = (q ⟨0, by decide⟩).val :=
  dot_S128x2048_S2048x10_S128x10_1_0_0_1_n_n.lhsIdx_val_of_single rfl i q
/-- Right operand of the first product, row axis: the contraction position. -/
theorem rhsA_0 (i : S128x10.Idx) (q : dot_S128x2048_S2048x10_S128x10_1_0_0_1_n_n.contr.Idx) :
    (dot_S128x2048_S2048x10_S128x10_1_0_0_1_n_n.rhsIdx i q 0).val = (q ⟨0, by decide⟩).val :=
  dot_S128x2048_S2048x10_S128x10_1_0_0_1_n_n.rhsIdx_val_of_single rfl i q
/-- Right operand of the first product, column axis: the output entry's column. -/
theorem rhsA_1 (i : S128x10.Idx) (q : dot_S128x2048_S2048x10_S128x10_1_0_0_1_n_n.contr.Idx) :
    (dot_S128x2048_S2048x10_S128x10_1_0_0_1_n_n.rhsIdx i q 1).val = (i 1).val := by
  unfold DotDims.rhsIdx
  rw [dif_neg (show ¬(1 : Fin S2048x10.rank) ∈ dot_S128x2048_S2048x10_S128x10_1_0_0_1_n_n.rhsBatch by decide), dif_pos (show (1 : Fin S2048x10.rank) ∈ dot_S128x2048_S2048x10_S128x10_1_0_0_1_n_n.rhsNonContracting by decide)]
  rfl

/-- The adjacency block times `x·W1`, into a zero accumulator, at `(p, g)`: the sum over the 2048 nodes. -/
theorem matmulA_apply (a : FVec Ideal S128x2048 .bf16) (b : FVec Ideal S2048x10 .bf16) (p : Fin 128) (g : Fin 10) :
    matmul dot_S128x2048_S2048x10_S128x10_1_0_0_1_n_n none a b (constant (F := Ideal) S128x10 .f32 0x00000000#32) (ix2 p g)
      = ∑ k : Fin 2048, a (ix2 p k) * b (ix2 k g) := by
  simp only [matmul]
  rw [Ideal.matmul_constant_zero_apply, ← Equiv.sum_comp (contrEquiv1 dot_S128x2048_S2048x10_S128x10_1_0_0_1_n_n 2048 rfl rfl).symm]
  refine Finset.sum_congr rfl fun k _ => ?_
  have hk := contrEquiv1_symm_val dot_S128x2048_S2048x10_S128x10_1_0_0_1_n_n 2048 rfl rfl k
  have el : dot_S128x2048_S2048x10_S128x10_1_0_0_1_n_n.lhsIdx (ix2 p g) ((contrEquiv1 dot_S128x2048_S2048x10_S128x10_1_0_0_1_n_n 2048 rfl rfl).symm k) = ix2 p k := funext fun a => Fin.ext (by
    match a with
    | ⟨0, _⟩ => exact lhsA_0 _ _
    | ⟨1, _⟩ => exact (lhsA_1 _ _).trans hk)
  have er : dot_S128x2048_S2048x10_S128x10_1_0_0_1_n_n.rhsIdx (ix2 p g) ((contrEquiv1 dot_S128x2048_S2048x10_S128x10_1_0_0_1_n_n 2048 rfl rfl).symm k) = ix2 k g := funext fun a => Fin.ext (by
    match a with
    | ⟨0, _⟩ => exact (rhsA_0 _ _).trans hk
    | ⟨1, _⟩ => exact rhsA_1 _ _)
  rw [el, er]

/-- Left operand of the second product, row axis: the output entry's row. -/
theorem lhsB_0 (i : S128x10.Idx) (q : dot_S128x10_S10x10_S128x10_1_0_0_1_n_n.contr.Idx) :
    (dot_S128x10_S10x10_S128x10_1_0_0_1_n_n.lhsIdx i q 0).val = (i 0).val := by
  unfold DotDims.lhsIdx
  rw [dif_neg (show ¬(0 : Fin S128x10.rank) ∈ dot_S128x10_S10x10_S128x10_1_0_0_1_n_n.lhsBatch by decide), dif_pos (show (0 : Fin S128x10.rank) ∈ dot_S128x10_S10x10_S128x10_1_0_0_1_n_n.lhsNonContracting by decide)]
  rfl
/-- Left operand of the second product, column axis: the contraction position. -/
theorem lhsB_1 (i : S128x10.Idx) (q : dot_S128x10_S10x10_S128x10_1_0_0_1_n_n.contr.Idx) :
    (dot_S128x10_S10x10_S128x10_1_0_0_1_n_n.lhsIdx i q 1).val = (q ⟨0, by decide⟩).val :=
  dot_S128x10_S10x10_S128x10_1_0_0_1_n_n.lhsIdx_val_of_single rfl i q
/-- Right operand of the second product, row axis: the contraction position. -/
theorem rhsB_0 (i : S128x10.Idx) (q : dot_S128x10_S10x10_S128x10_1_0_0_1_n_n.contr.Idx) :
    (dot_S128x10_S10x10_S128x10_1_0_0_1_n_n.rhsIdx i q 0).val = (q ⟨0, by decide⟩).val :=
  dot_S128x10_S10x10_S128x10_1_0_0_1_n_n.rhsIdx_val_of_single rfl i q
/-- Right operand of the second product, column axis: the output entry's column. -/
theorem rhsB_1 (i : S128x10.Idx) (q : dot_S128x10_S10x10_S128x10_1_0_0_1_n_n.contr.Idx) :
    (dot_S128x10_S10x10_S128x10_1_0_0_1_n_n.rhsIdx i q 1).val = (i 1).val := by
  unfold DotDims.rhsIdx
  rw [dif_neg (show ¬(1 : Fin S10x10.rank) ∈ dot_S128x10_S10x10_S128x10_1_0_0_1_n_n.rhsBatch by decide), dif_pos (show (1 : Fin S10x10.rank) ∈ dot_S128x10_S10x10_S128x10_1_0_0_1_n_n.rhsNonContracting by decide)]
  rfl

/-- The rectified hidden block times the dense layer's weights, into a zero accumulator, at `(p, g)`: the sum over the ten hidden units. -/
theorem matmulB_apply (a : FVec Ideal S128x10 .bf16) (b : FVec Ideal S10x10 .bf16) (p : Fin 128) (g : Fin 10) :
    matmul dot_S128x10_S10x10_S128x10_1_0_0_1_n_n none a b (constant (F := Ideal) S128x10 .f32 0x00000000#32) (ix2 p g)
      = ∑ k : Fin 10, a (ix2 p k) * b (ix2 k g) := by
  simp only [matmul]
  rw [Ideal.matmul_constant_zero_apply, ← Equiv.sum_comp (contrEquiv1 dot_S128x10_S10x10_S128x10_1_0_0_1_n_n 10 rfl rfl).symm]
  refine Finset.sum_congr rfl fun k _ => ?_
  have hk := contrEquiv1_symm_val dot_S128x10_S10x10_S128x10_1_0_0_1_n_n 10 rfl rfl k
  have el : dot_S128x10_S10x10_S128x10_1_0_0_1_n_n.lhsIdx (ix2 p g) ((contrEquiv1 dot_S128x10_S10x10_S128x10_1_0_0_1_n_n 10 rfl rfl).symm k) = ix2 p k := funext fun a => Fin.ext (by
    match a with
    | ⟨0, _⟩ => exact lhsB_0 _ _
    | ⟨1, _⟩ => exact (lhsB_1 _ _).trans hk)
  have er : dot_S128x10_S10x10_S128x10_1_0_0_1_n_n.rhsIdx (ix2 p g) ((contrEquiv1 dot_S128x10_S10x10_S128x10_1_0_0_1_n_n 10 rfl rfl).symm k) = ix2 k g := funext fun a => Fin.ext (by
    match a with
    | ⟨0, _⟩ => exact (rhsB_0 _ _).trans hk
    | ⟨1, _⟩ => exact rhsB_1 _ _)
  rw [el, er]

/-! ## The two row reductions read at a row -/

/-- The source index over row `p` with column `k` inserted is `(p, k)`. -/
theorem lift_row (p : Fin 128) (k : Fin 10) :
    reduces_S128x10_S128.lift (ix1 p) k = ix2 p k := by
  funext a
  match a with
  | ⟨0, _⟩ => exact Fin.ext rfl
  | ⟨1, _⟩ => exact Fin.ext rfl

/-- The row maximum at row `p`: the fold of `max` over the row's ten entries from the word of −∞. -/
theorem rowMax_apply (v : FVec Ideal S128x10 .f32) (p : Fin 128) :
    multiReduction (F := Ideal) .maximumf [1] S128 v 0xFF800000#32 reduces_S128x10_S128 (.inl rfl) rfl (ix1 p)
      = rowMax (fun k => v (ix2 p k)) := by
  refine (Ideal.multiReduction_maximumf_single v 0xFF800000#32 reduces_S128x10_S128 (.inl rfl) rfl (ix1 p)).trans ?_
  unfold rowMax
  rw [Ideal.ofBits_def]
  exact congrArg (fun f => (Finset.univ : Finset (Fin 10)).fold max (Ideal.ofBits .f32 0xFF800000#32) f)
    (show v ∘ reduces_S128x10_S128.lift (ix1 p) = fun k => v (ix2 p k) from funext fun k => congrArg v (lift_row p k))

/-- The row sum at row `p`: the sum of the row's ten entries. -/
theorem rowSum_apply (v : FVec Ideal S128x10 .f32) (p : Fin 128) :
    multiReduction (F := Ideal) .add [1] S128 v 0x00000000#32 reduces_S128x10_S128 (.inl rfl) rfl (ix1 p)
      = ∑ k : Fin 10, v (ix2 p k) := by
  refine (Ideal.multiReduction_add_single v 0x00000000#32 reduces_S128x10_S128 (.inl rfl) rfl (ix1 p)).trans ?_
  exact Finset.sum_congr rfl fun k _ => congrArg v (lift_row p k)

/-! ## The stages of the body, each over an arbitrary operand -/

/-- The hidden row the body forms at block row `p`: the loaded row block of `x·W0`, plus the adjacency block times
    `x·W1`, plus the bias row. -/
theorem hidden_apply (v2 : Vec Ideal S128x2048 .f32) (v5 : Vec Ideal S2048x10 .f32) (v10 : Vec Ideal S128x10 .f32)
    (v13 : Vec Ideal S1x10 .f32) (p : Fin 128) (g : Fin 10) :
    addf (addf (shapeCast S128x10 v10 shapeCasts_S128x10_S128x10)
        (matmul dot_S128x2048_S2048x10_S128x10_1_0_0_1_n_n none
          (truncf .bf16 (shapeCast S128x2048 v2 shapeCasts_S128x2048_S128x2048) bitsLt_bf16_f32)
          (truncf .bf16 (shapeCast S2048x10 v5 shapeCasts_S2048x10_S2048x10) bitsLt_bf16_f32)
          (constant (F := Ideal) S128x10 .f32 0x00000000#32)))
      (broadcastTo S128x10 (shapeCast S1x10 v13 shapeCasts_S1x10_S1x10) broadcasts_S1x10_S128x10) (ix2 p g)
      = (v10 (ix2 p g) + ∑ k : Fin 2048, v2 (ix2 p k) * v5 (ix2 k g)) + v13 (ix2 0 g) := by
  rw [addf_apply, addf_apply, matmulA_apply, shapeCast_self, shapeCast_self, shapeCast_self, shapeCast_self,
    broadcastTo_1b_ab_apply]
  rfl

/-- The rectifier at an entry: the maximum with zero. -/
theorem relu_apply (v16 : FVec Ideal S128x10 .f32) (i : S128x10.Idx) :
    maximumf v16 (broadcast S128x10 (Scalar.ofBits (F := Ideal) .f32 0x00000000#32)) i = max (v16 i) 0 := by
  rw [maximumf_apply, broadcast_apply]
  exact congrArg (max (v16 i)) Ideal.ofBits_zero_f32

/-- The dense layer at `(p, q)`, on a rectified block whose row `p` is known. -/
theorem dense_apply (v18 : FVec Ideal S128x10 .f32) (v19 : Vec Ideal S10x10 .f32) (v23 : Vec Ideal S1x10 .f32)
    (p : Fin 128) (r : Fin 10 → EReal) (hr : ∀ k, v18 (ix2 p k) = r k) (q : Fin 10) :
    addf (matmul dot_S128x10_S10x10_S128x10_1_0_0_1_n_n none (truncf .bf16 v18 bitsLt_bf16_f32)
          (truncf .bf16 v19 bitsLt_bf16_f32) (constant (F := Ideal) S128x10 .f32 0x00000000#32))
      (broadcastTo S128x10 (shapeCast S1x10 v23 shapeCasts_S1x10_S1x10) broadcasts_S1x10_S128x10) (ix2 p q)
      = (∑ k : Fin 10, r k * v19 (ix2 k q)) + v23 (ix2 0 q) := by
  rw [addf_apply, matmulB_apply, shapeCast_self, broadcastTo_1b_ab_apply]
  refine congrArg (· + v23 (ix2 0 q)) (Finset.sum_congr rfl fun k _ => ?_)
  rw [truncf_apply, truncf_apply, hr k]

/-- The row maximum stood up as a column and broadcast back over the block, at `(p, q)`. -/
theorem maxCol_apply (v26 : FVec Ideal S128x10 .f32) (p : Fin 128) (q : Fin 10) :
    broadcastTo S128x10
        (shapeCast S128x1 (multiReduction (F := Ideal) .maximumf [1] S128 v26 0xFF800000#32 reduces_S128x10_S128 (.inl rfl) rfl)
          shapeCasts_S128_S128x1) broadcasts_S128x1_S128x10 (ix2 p q)
      = rowMax (fun k => v26 (ix2 p k)) := by
  rw [broadcastTo_a1_ab_apply, shapeCast_a_a1_apply, rowMax_apply]

/-- The log-softmax tail of the body at `(p, j)`, over a logits block whose row `p` is known. -/
theorem tail_apply (v26 : FVec Ideal S128x10 .f32) (p : Fin 128) (z : Fin 10 → EReal) (hz : ∀ q, v26 (ix2 p q) = z q)
    (j : Fin 10) :
    subf
        (subf v26 (broadcastTo S128x10
          (shapeCast S128x1 (multiReduction (F := Ideal) .maximumf [1] S128 v26 0xFF800000#32 reduces_S128x10_S128 (.inl rfl) rfl)
            shapeCasts_S128_S128x1) broadcasts_S128x1_S128x10))
        (broadcastTo S128x10
          (log (shapeCast S128x1
            (multiReduction (F := Ideal) .add [1] S128
              (exp (subf v26 (broadcastTo S128x10
                (shapeCast S128x1 (multiReduction (F := Ideal) .maximumf [1] S128 v26 0xFF800000#32 reduces_S128x10_S128 (.inl rfl) rfl)
                  shapeCasts_S128_S128x1) broadcasts_S128x1_S128x10)))
              0x00000000#32 reduces_S128x10_S128 (.inl rfl) rfl)
            shapeCasts_S128_S128x1))
          broadcasts_S128x1_S128x10) (ix2 p j)
      = (z j - rowMax z) - Ideal.log (∑ j' : Fin 10, Ideal.exp (z j' - rowMax z)) := by
  have hrow : (fun k => v26 (ix2 p k)) = z := funext hz
  rw [subf_apply, subf_apply, maxCol_apply, broadcastTo_a1_ab_apply, hrow, hz j]
  refine congrArg (fun t => (z j - rowMax z) - t) ?_
  show Ideal.log (shapeCast S128x1 _ shapeCasts_S128_S128x1 (ix2 p (0 : Fin 1))) = _
  rw [shapeCast_a_a1_apply, rowSum_apply]
  refine congrArg Ideal.log (Finset.sum_congr rfl fun j' _ => ?_)
  show Ideal.exp (subf v26 _ (ix2 p j')) = _
  rw [subf_apply, maxCol_apply, hrow, hz j']

/-! ## The stored entry -/

/-- Entry `(p, j)` of the stored block is the head of the hidden row the body forms at block row `p`. -/
theorem pay_apply (v2 : Vec Ideal S128x2048 .f32) (v5 : Vec Ideal S2048x10 .f32) (v10 : Vec Ideal S128x10 .f32)
    (v13 : Vec Ideal S1x10 .f32) (v19 : Vec Ideal S10x10 .f32) (v23 : Vec Ideal S1x10 .f32) (p : Fin 128) (j : Fin 10) :
    k0_pay1 (F := Ideal) v2 v5 v10 v13 v19 v23 (ix2 p j)
      = head (fun k j' => v19 (ix2 k j')) (fun j' => v23 (ix2 0 j'))
          (fun g => (v10 (ix2 p g) + ∑ k : Fin 2048, v2 (ix2 p k) * v5 (ix2 k g)) + v13 (ix2 0 g)) j := by
  unfold k0_pay1
  exact tail_apply _ p _ (fun q => dense_apply _ v19 v23 p _
    (fun k => (relu_apply _ (ix2 p k)).trans (congrArg (max · 0) (hidden_apply v2 v5 v10 v13 p k))) q) j

end Cert.Cheb.KernelHead

end
-- ==== Proof.KernelBlocks.lean ====
/-
  What grid point `t` writes back, entry by entry.

  The grid has 16 points; point `t` owns rows `128·t … 128·t + 127` of the output. Its adjacency block is those rows
  of the dense adjacency (all 2048 columns); the five other operands are resident whole arrays, the same block at
  every point; and the body itself picks rows `128·t …` out of the resident `x·W0`. So entry `(p, j)` of what the
  point writes back is the classifier head of the hidden row of node `128·t + p`, formed from the arrays as the
  region finds them.
-/
import proofs.«405329_j49641232007490_3_alg».proof.Proof.Gen.KernelIdeal.Value
import proofs.«405329_j49641232007490_3_alg».proof.Proof.KernelPiece
import proofs.«405329_j49641232007490_3_alg».proof.Proof.KernelHead
import proofs.«405329_j49641232007490_3_alg».proof.Proof.HeadSpec

set_option maxRecDepth 16384

noncomputable section

namespace Cert.Cheb.KernelBlocks

open Cert.KernelIdeal Cert.KernelIdeal.Gen Cert.KernelIdeal.Value Idealize.ShloMosaic Idealize.ShloMosaic.TcCoe Idealize.SL.Sem
open Idealize.ShloMosaic.ValueIdx Cert.Cheb
open Idealize.ShloMosaic.Pipeline (Dat)

variable (m : (ℓ : Loc nD τ sig) → Buf (Elt Ideal) ℓ)

/-- The printed index maps, decided over the grid: the adjacency window and the output window are at block row `t`,
    the resident operands at block (0, 0), and the grid coordinate of point `t` is `t`. -/
theorem grid_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ (grid0.coords t (0 : Fin 1)).val = t.val ∧ t.val < 16 :=
  (by decide +kernel : ∀ t : Fin grid0.N, _)

/-- The node whose output row is row `p` of point `t`'s block. -/
def rowOf (t : Fin cfg0.N) (p : Fin 128) : Fin 2048 :=
  ⟨128 * t.val + p.val, by have := (grid_facts t).2.2.2.2.2.2.2.2.2.2.2.2.2.2.2; have := p.isLt; omega⟩

theorem rowOf_val (t : Fin cfg0.N) (p : Fin 128) : (rowOf t p).val = 128 * t.val + p.val := rfl

/-- The arrays the region finds, at their literal types: the dense adjacency, `x·W0`, `x·W1`, the first bias row,
    the dense layer's matrix, the second bias row. -/
abbrev adj (c : Dev nD) : S2048x2048.Idx → EReal := V m c main_v36
abbrev xw0 (c : Dev nD) : S2048x10.Idx → EReal := V m c main_v39
abbrev xw1 (c : Dev nD) : S2048x10.Idx → EReal := V m c main_v40
abbrev b1 (c : Dev nD) : S1x10.Idx → EReal := V m c main_v41
abbrev wf (c : Dev nD) : S10x10.Idx → EReal := V m c main_arg5
abbrev b2 (c : Dev nD) : S1x10.Idx → EReal := V m c main_v42

/-- Entry `(p, k)` of point `t`'s adjacency block is entry `(128·t + p, k)` of the dense adjacency. -/
theorem adj_block_apply (c : Dev nD) (t : Fin cfg0.N) (p : Fin 128) (k : Fin 2048) :
    (iblk m c 0 t : Vec Ideal S128x2048 .f32) (ix2 p k) = adj m c (ix2 (rowOf t p) k) := by
  obtain ⟨e0, e1, -⟩ := grid_facts t
  show (V m c main_v36 : S2048x2048.Idx → EReal) (((cfg0.win 0).blk t).view.emb (ix2 p k)) = _
  refine congrArg _ (funext fun a => Fin.ext ?_)
  match a with
  | ⟨0, _⟩ => show win0_0.index t (0 : Fin 2) * 128 + 1 * p.val = 128 * t.val + p.val; omega
  | ⟨1, _⟩ => show win0_0.index t (1 : Fin 2) * 2048 + 1 * k.val = k.val; omega

/-- The resident `x·W0`: the same whole array at every point. -/
theorem xw0_block_apply (c : Dev nD) (t : Fin cfg0.N) (a : Fin 2048) (b : Fin 10) :
    (iblk m c 1 t : Vec Ideal S2048x10 .f32) (ix2 a b) = xw0 m c (ix2 a b) := by
  obtain ⟨-, -, e10, e11, e20, e21, e30, e31, e40, e41, e50, e51, -⟩ := grid_facts t
  show (V m c main_v39 : S2048x10.Idx → EReal) (((cfg0.win 1).blk t).view.emb (ix2 a b)) = _
  refine congrArg _ (funext fun ax => Fin.ext ?_)
  match ax with
  | ⟨0, _⟩ => show win0_1.index t (0 : Fin 2) * 2048 + 1 * a.val = a.val; omega
  | ⟨1, _⟩ => show win0_1.index t (1 : Fin 2) * 10 + 1 * b.val = b.val; omega

/-- The resident `x·W1`: the same whole array at every point. -/
theorem xw1_block_apply (c : Dev nD) (t : Fin cfg0.N) (a : Fin 2048) (b : Fin 10) :
    (iblk m c 2 t : Vec Ideal S2048x10 .f32) (ix2 a b) = xw1 m c (ix2 a b) := by
  obtain ⟨-, -, e10, e11, e20, e21, e30, e31, e40, e41, e50, e51, -⟩ := grid_facts t
  show (V m c main_v40 : S2048x10.Idx → EReal) (((cfg0.win 2).blk t).view.emb (ix2 a b)) = _
  refine congrArg _ (funext fun ax => Fin.ext ?_)
  match ax with
  | ⟨0, _⟩ => show win0_2.index t (0 : Fin 2) * 2048 + 1 * a.val = a.val; omega
  | ⟨1, _⟩ => show win0_2.index t (1 : Fin 2) * 10 + 1 * b.val = b.val; omega

/-- The first bias row: the same whole array at every point. -/
theorem bias_block_apply (c : Dev nD) (t : Fin cfg0.N) (a : Fin 1) (b : Fin 10) :
    (iblk m c 3 t : Vec Ideal S1x10 .f32) (ix2 a b) = b1 m c (ix2 a b) := by
  obtain ⟨-, -, e10, e11, e20, e21, e30, e31, e40, e41, e50, e51, -⟩ := grid_facts t
  show (V m c main_v41 : S1x10.Idx → EReal) (((cfg0.win 3).blk t).view.emb (ix2 a b)) = _
  refine congrArg _ (funext fun ax => Fin.ext ?_)
  match ax with
  | ⟨0, _⟩ => show win0_3.index t (0 : Fin 2) * 1 + 1 * a.val = a.val; omega
  | ⟨1, _⟩ => show win0_3.index t (1 : Fin 2) * 10 + 1 * b.val = b.val; omega

/-- The dense layer's matrix: the same whole array at every point. -/
theorem wf_block_apply (c : Dev nD) (t : Fin cfg0.N) (a : Fin 10) (b : Fin 10) :
    (iblk m c 4 t : Vec Ideal S10x10 .f32) (ix2 a b) = wf m c (ix2 a b) := by
  obtain ⟨-, -, e10, e11, e20, e21, e30, e31, e40, e41, e50, e51, -⟩ := grid_facts t
  show (V m c main_arg5 : S10x10.Idx → EReal) (((cfg0.win 4).blk t).view.emb (ix2 a b)) = _
  refine congrArg _ (funext fun ax => Fin.ext ?_)
  match ax with
  | ⟨0, _⟩ => show win0_4.index t (0 : Fin 2) * 10 + 1 * a.val = a.val; omega
  | ⟨1, _⟩ => show win0_4.index t (1 : Fin 2) * 10 + 1 * b.val = b.val; omega

/-- The second bias row: the same whole array at every point. -/
theorem bf_block_apply (c : Dev nD) (t : Fin cfg0.N) (a : Fin 1) (b : Fin 10) :
    (iblk m c 5 t : Vec Ideal S1x10 .f32) (ix2 a b) = b2 m c (ix2 a b) := by
  obtain ⟨-, -, e10, e11, e20, e21, e30, e31, e40, e41, e50, e51, -⟩ := grid_facts t
  show (V m c main_v42 : S1x10.Idx → EReal) (((cfg0.win 5).blk t).view.emb (ix2 a b)) = _
  refine congrArg _ (funext fun ax => Fin.ext ?_)
  match ax with
  | ⟨0, _⟩ => show win0_5.index t (0 : Fin 2) * 1 + 1 * a.val = a.val; omega
  | ⟨1, _⟩ => show win0_5.index t (1 : Fin 2) * 10 + 1 * b.val = b.val; omega

/-- The 128 rows of `x·W0` the body picks at point `t` are rows `128·t …`: entry `(p, g)` is entry `(128·t + p, g)`. -/
theorem row_block_apply (c : Dev nD) (t : Fin cfg0.N) (p : Fin 128) (g : Fin 10) :
    KernelPiece.rowBlock (grid0.coords t) (iblk m c 1 t : Vec Ideal S2048x10 .f32) (ix2 p g)
      = xw0 m c (ix2 (rowOf t p) g) := by
  rw [← xw0_block_apply m c t (rowOf t p) g]
  have hc : (grid0.coords t (0 : Fin 1)).val = t.val := (grid_facts t).2.2.2.2.2.2.2.2.2.2.2.2.2.2.1
  show (iblk m c 1 t : Vec Ideal S2048x10 .f32)
      ((Rect.unit (s := S2048x10) (k0_off1 (grid0.coords t)) S128x10.size (k0_off1_inb (grid0.coords t))).emb (ix2 p g)) = _
  refine congrArg _ (funext fun ax => Fin.ext ?_)
  match ax with
  | ⟨0, _⟩ =>
    show k0_off1 (grid0.coords t) (0 : Fin 2) + 1 * p.val = 128 * t.val + p.val
    rw [k0_off1_eq]
    show 128 * (grid0.coords t (0 : Fin 1)).val + 1 * p.val = 128 * t.val + p.val
    omega
  | ⟨1, _⟩ =>
    show k0_off1 (grid0.coords t) (1 : Fin 2) + 1 * g.val = g.val
    rw [k0_off1_eq]
    show 0 + 1 * g.val = g.val
    omega

/-- What point `t` writes back is the body's stored value of the point's blocks. -/
theorem flushed_eq_pay (c : Dev nD) (t : Fin cfg0.N) :
    ((dats m 0 c).flushed 6 t : S128x10.Idx → EReal)
      = k0_pay1 (iblk m c 0 t) (iblk m c 2 t) (KernelPiece.rowBlock (grid0.coords t) (iblk m c 1 t)) (iblk m c 3 t) (iblk m c 4 t) (iblk m c 5 t) := by
  rw [flushed6_A]
  show out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) = _
  exact KernelPiece.out_eq_pay c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)

/-- Entry `(p, j)` of what point `t` writes back: the head of node `128·t + p`'s hidden row, over the arrays the region finds. -/
theorem flushed_apply (c : Dev nD) (t : Fin cfg0.N) (p : Fin 128) (j : Fin 10) :
    ((dats m 0 c).flushed 6 t : S128x10.Idx → EReal) (ix2 p j)
      = head (fun k j' => wf m c (ix2 k j')) (fun j' => b2 m c (ix2 0 j'))
          (fun g => (xw0 m c (ix2 (rowOf t p) g) + ∑ k : Fin 2048, adj m c (ix2 (rowOf t p) k) * xw1 m c (ix2 k g)) + b1 m c (ix2 0 g)) j := by
  refine (congrFun (flushed_eq_pay m c t) (ix2 p j)).trans ?_
  refine (KernelHead.pay_apply _ _ _ _ _ _ p j).trans ?_
  simp only [adj_block_apply, xw1_block_apply, bias_block_apply, wf_block_apply, bf_block_apply, row_block_apply]

end Cert.Cheb.KernelBlocks

end
-- ==== Proof.LibNaryResult.lean ====
/-
  A host operation over a literal family of references, read at its result.

  `StableHlo.nary xs y f` writes `f` of the family of its operands' contents into `y`.  Its general result
  lemma states the family as `fun k => F ↑(xs k)`; for a LITERAL family `![a, b, c]` the lemmas below state it
  as `Fin.cons (F ↑a) (Fin.cons (F ↑b) …)` instead — each operand's contents at its own reference —, which is what
  lets a rewriting pass over a line of operations go on into the operands (a concatenate of three, five or nine
  computed pieces).  The library has this form for four references (`nary4_result`); these are the same statement
  and proof at three, five and nine.
-/
import Idealize.ShloMosaic.Lib.StableHlo.Run

noncomputable section

namespace Idealize.ShloMosaic.StableHlo

variable {nD : Nat} {τ : Topo} {sig : RefSig} {Val : EltTy → Type}
variable {x a b c e g h i j y : Ref sig .tc}

/-- `nary` over a LITERAL family of 3 references: the result with each operand's contents at its own reference, so that
    a pass over the operations' results goes on rewriting the operands' contents (under the binder of `nary_result` the
    reference `![x, a, b] k` is no literal and no result lemma applies to it). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
/-- The same with the result reference un-indexed, for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- `nary` over a LITERAL family of 5 references: the result with each operand's contents at its own reference, so that
    a pass over the operations' results goes on rewriting the operands' contents (under the binder of `nary_result` the
    reference `![x, a, b, c, e] k` is no literal and no result lemma applies to it). -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) := by
  rw [nary_result]; congr 1; funext k; fin_cases k <;> rfl
/-- The same with the result reference un-indexed, for `simp`. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) :=
  nary5_result f hxs hy F

/-- `nary` over a LITERAL family of 9 references: the result with each operand's contents at its own reference, so that
    a pass over the operations' results goes on rewriting the operands' contents (under the binder of `nary_result` the
    reference `![x, a, b, c, e, g, h, i, j] k` is no literal and no result lemma applies to it). -/
theorem nary9_result
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) := by
  rw [nary_result]; congr 1; funext k; fin_cases k <;> rfl
/-- The same with the result reference un-indexed, for `simp`. -/
theorem nary9_result'
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) :=
  nary9_result f hxs hy F

end Idealize.ShloMosaic.StableHlo

end
-- ==== Proof.LibReadStretch.lean ====
/-
  Reading a short stretch of host operations.

  `StableHlo.nary xs y f` writes `f` of the family of its operands' contents into `y`; for a LITERAL family of two
  references the result is stated here with each operand's contents at its own reference (the library has this form at
  four references, and at three, five and nine in a sibling file), so that a rewriting pass goes on into the operands.
  `read_stretch` is one rewriting pass over a goal about `StableHlo.after` of a literal stretch: it unfolds the fold and
  rewrites each operation's result at its own buffer to its function's value and at any other buffer to what was there
  (two references told apart by deciding), with the literal-family forms of `nary` only — never the general form, which
  leaves the operands under a binder.
-/
import Idealize.ShloMosaic.Lib.StableHlo.Run
import proofs.«405329_j49641232007490_3_alg».proof.Proof.LibNaryResult

noncomputable section

namespace Idealize.ShloMosaic.StableHlo

variable {nD : Nat} {τ : Topo} {sig : RefSig} {Val : EltTy → Type}
variable {x a y : Ref sig .tc}

/-- `nary` over a LITERAL family of 2 references: the result with each operand's contents at its own reference. -/
theorem nary2_result
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) := by
  rw [nary_result]; congr 1; funext k; fin_cases k <;> rfl
/-- The same with the result reference un-indexed, for `simp`. -/
theorem nary2_result'
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) :=
  nary2_result f hxs hy F

end Idealize.ShloMosaic.StableHlo

open Idealize.ShloMosaic.StableHlo in
/-- One rewriting pass over a literal stretch's fold (see the header). -/
macro "read_stretch" : tactic =>
  `(tactic| (simp (disch := decide) only [after_cons, after_nil,
      nullary_result', unary_result', binary_result', ternary_result', quaternary_result', reshape_result',
      nary2_result', nary3_result', nary4_result',
      nullary_result_ne', unary_result_ne', binary_result_ne', ternary_result_ne', quaternary_result_ne', reshape_result_ne',
      nary_result_ne']))

end
-- ==== Proof.LibReadStretchRw.lean ====
/-
  Reading a short stretch of host operations, second pass.  Where an operation's function places its operands inside a
  list of shaped pieces (a concatenate printed as a binary or ternary operation), a simplifier pass stops at the list;
  `read_stretch_rw` goes on inside it by plain rewriting: each operation's result at its own buffer is its function's
  value, and at any other buffer what was there (two references told apart by deciding).
-/
import proofs.«405329_j49641232007490_3_alg».proof.Proof.LibReadStretch

open Idealize.ShloMosaic.StableHlo in
/-- The rewriting pass (see the header): repeats until no operation's result is left to read. -/
macro "read_stretch_rw" : tactic =>
  `(tactic| repeat (first
      | rw [nullary_result] | rw [unary_result] | rw [binary_result] | rw [ternary_result] | rw [quaternary_result]
      | rw [reshape_result] | rw [nary4_result] | rw [nary3_result] | rw [nary2_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [nary_result_ne]; rotate_left; decide)))
-- ==== Proof.LibCarry.lean ====
/-
  A buffer that no operation of a stretch of host operations writes holds after the stretch what it held before it.
  `keep_host ops` closes a goal `StableHlo.after ops V b = V b` (also when the left side is an abbreviation for it) for a
  literal list `ops` and a literal buffer `b`: it unfolds the list, reads off what each operation writes, and tells each
  written buffer from `b` by deciding that the two references differ.
-/
import Idealize.ShloMosaic.Lib.StableHlo.Run

open Idealize.ShloMosaic

/-- `keep_host ops`: the stretch `ops` does not write the goal's buffer. -/
macro "keep_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.KernelHost.lean ====
/-
  The arrays the kernel's region finds, as terms of the program's arguments.

  Before the call the host computes, in three stretches of operations: the degree factors and the edge weights
  (the same operations the reference runs), the dense adjacency (the weights scattered at the linearized
  positions, reshaped), the joined projection `x · [W0 | W1]` and its two column slices, and the two bias vectors
  stood up as one-row matrices. No host operation writes an argument, so each of these is a term of the arguments
  as launched.
-/
import proofs.«405329_j49641232007490_3_alg».proof.Proof.Gen.KernelIdeal.Frame.Runs
import proofs.«405329_j49641232007490_3_alg».proof.Proof.LibReadStretchRw
import proofs.«405329_j49641232007490_3_alg».proof.Proof.LibCarry
import Idealize.ShloMosaic.Lib.StableHlo.Run
import Idealize.ShloMosaic.Lib.Pipeline.Frame

set_option maxRecDepth 16384

noncomputable section

namespace Cert.Cheb.KernelHost

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The contents after the first two stretches of host operations. -/
abbrev mid (c : Dev nD) : Valuation τ sig (Elt F) :=
  StableHlo.after hostOps0_1 (StableHlo.after hostOps0 (fun b => m (c, b)))

/-- The region's view of the buffers is the third stretch run over the first two. -/
theorem V_split (c : Dev nD) (b : Ref sig .tc) : V m c b = StableHlo.after hostOps0_2 (mid m c) (Proc.devRef .tc b) := by
  dsimp only [V, mid]
  simp only [List.flatten_cons, List.flatten_nil, List.append_nil]
  rw [StableHlo.after_append, StableHlo.after_append]

theorem mid_arg0 (c : Dev nD) : mid m c (Proc.devRef .tc main_arg0) = m (c, Proc.devRef .tc main_arg0) :=
  (by keep_host hostOps0_1 : StableHlo.after hostOps0_1 (StableHlo.after hostOps0 (fun b => m (c, b))) (Proc.devRef .tc main_arg0) = _).trans
    (by keep_host hostOps0)
theorem mid_arg2 (c : Dev nD) : mid m c (Proc.devRef .tc main_arg2) = m (c, Proc.devRef .tc main_arg2) :=
  (by keep_host hostOps0_1 : StableHlo.after hostOps0_1 (StableHlo.after hostOps0 (fun b => m (c, b))) (Proc.devRef .tc main_arg2) = _).trans
    (by keep_host hostOps0)
theorem mid_arg3 (c : Dev nD) : mid m c (Proc.devRef .tc main_arg3) = m (c, Proc.devRef .tc main_arg3) :=
  (by keep_host hostOps0_1 : StableHlo.after hostOps0_1 (StableHlo.after hostOps0 (fun b => m (c, b))) (Proc.devRef .tc main_arg3) = _).trans
    (by keep_host hostOps0)
theorem mid_arg4 (c : Dev nD) : mid m c (Proc.devRef .tc main_arg4) = m (c, Proc.devRef .tc main_arg4) :=
  (by keep_host hostOps0_1 : StableHlo.after hostOps0_1 (StableHlo.after hostOps0 (fun b => m (c, b))) (Proc.devRef .tc main_arg4) = _).trans
    (by keep_host hostOps0)
theorem mid_arg6 (c : Dev nD) : mid m c (Proc.devRef .tc main_arg6) = m (c, Proc.devRef .tc main_arg6) :=
  (by keep_host hostOps0_1 : StableHlo.after hostOps0_1 (StableHlo.after hostOps0 (fun b => m (c, b))) (Proc.devRef .tc main_arg6) = _).trans
    (by keep_host hostOps0)

set_option maxHeartbeats 4000000 in
/-- The third stretch's first slice of the joined product, over any earlier contents. -/
theorem last_v39 (W : Valuation τ sig (Elt F)) :
    (StableHlo.after (hostOps0_2 (F := F)) W (Proc.devRef .tc main_v39) : S2048x10.Idx → Elt F .f32)
      = extractStridedSlice S2048x10 ![0, 0]
          (Host.dotGeneral dot_S2048x2048_S2048x20_S2048x20_1_0_0_1_n_n none (W (Proc.devRef .tc main_arg0))
            (concatenate S2048x20 1 [⟨S2048x10, W (Proc.devRef .tc main_arg2)⟩, ⟨S2048x10, W (Proc.devRef .tc main_arg3)⟩]
              concatenates_S2048x10_S2048x10_S2048x20_d1))
          slices_S2048x20_S2048x10_0_0 := by
  simp only [hostOps0_2]
  after_results_simp
  read_stretch_rw

set_option maxHeartbeats 4000000 in
/-- The third stretch's second slice of the joined product, over any earlier contents. -/
theorem last_v40 (W : Valuation τ sig (Elt F)) :
    (StableHlo.after (hostOps0_2 (F := F)) W (Proc.devRef .tc main_v40) : S2048x10.Idx → Elt F .f32)
      = extractStridedSlice S2048x10 ![0, 10]
          (Host.dotGeneral dot_S2048x2048_S2048x20_S2048x20_1_0_0_1_n_n none (W (Proc.devRef .tc main_arg0))
            (concatenate S2048x20 1 [⟨S2048x10, W (Proc.devRef .tc main_arg2)⟩, ⟨S2048x10, W (Proc.devRef .tc main_arg3)⟩]
              concatenates_S2048x10_S2048x10_S2048x20_d1))
          slices_S2048x20_S2048x10_0_10 := by
  simp only [hostOps0_2]
  after_results_simp
  read_stretch_rw

set_option maxHeartbeats 4000000 in
theorem last_v41 (W : Valuation τ sig (Elt F)) :
    (StableHlo.after (hostOps0_2 (F := F)) W (Proc.devRef .tc main_v41) : S1x10.Idx → Elt F .f32)
      = shapeCast S1x10 (W (Proc.devRef .tc main_arg4)) shapeCasts_S10_S1x10 := by
  simp only [hostOps0_2]
  after_results_simp
  rfl

set_option maxHeartbeats 4000000 in
theorem last_v42 (W : Valuation τ sig (Elt F)) :
    (StableHlo.after (hostOps0_2 (F := F)) W (Proc.devRef .tc main_v42) : S1x10.Idx → Elt F .f32)
      = shapeCast S1x10 (W (Proc.devRef .tc main_arg6)) shapeCasts_S10_S1x10 := by
  simp only [hostOps0_2]
  after_results_simp
  rfl

/-- `x · W0` as the region finds it. -/
theorem V_v39 (c : Dev nD) :
    (V m c main_v39 : S2048x10.Idx → Elt F .f32)
      = extractStridedSlice S2048x10 ![0, 0]
          (Host.dotGeneral dot_S2048x2048_S2048x20_S2048x20_1_0_0_1_n_n none (m (c, Proc.devRef .tc main_arg0))
            (concatenate S2048x20 1 [⟨S2048x10, m (c, Proc.devRef .tc main_arg2)⟩, ⟨S2048x10, m (c, Proc.devRef .tc main_arg3)⟩]
              concatenates_S2048x10_S2048x10_S2048x20_d1))
          slices_S2048x20_S2048x10_0_0 := by
  rw [V_split, last_v39, mid_arg0, mid_arg2, mid_arg3]

/-- `x · W1` as the region finds it. -/
theorem V_v40 (c : Dev nD) :
    (V m c main_v40 : S2048x10.Idx → Elt F .f32)
      = extractStridedSlice S2048x10 ![0, 10]
          (Host.dotGeneral dot_S2048x2048_S2048x20_S2048x20_1_0_0_1_n_n none (m (c, Proc.devRef .tc main_arg0))
            (concatenate S2048x20 1 [⟨S2048x10, m (c, Proc.devRef .tc main_arg2)⟩, ⟨S2048x10, m (c, Proc.devRef .tc main_arg3)⟩]
              concatenates_S2048x10_S2048x10_S2048x20_d1))
          slices_S2048x20_S2048x10_0_10 := by
  rw [V_split, last_v40, mid_arg0, mid_arg2, mid_arg3]

/-- The first bias row as the region finds it. -/
theorem V_v41 (c : Dev nD) :
    (V m c main_v41 : S1x10.Idx → Elt F .f32) = shapeCast S1x10 (m (c, Proc.devRef .tc main_arg4)) shapeCasts_S10_S1x10 := by
  rw [V_split, last_v41, mid_arg4]

/-- The second bias row as the region finds it. -/
theorem V_v42 (c : Dev nD) :
    (V m c main_v42 : S1x10.Idx → Elt F .f32) = shapeCast S1x10 (m (c, Proc.devRef .tc main_arg6)) shapeCasts_S10_S1x10 := by
  rw [V_split, last_v42, mid_arg6]

end Cert.Cheb.KernelHost

end
-- ==== Proof.KernelWeights.lean ====
/-
  The kernel's edge weights are the reference's, and its dense adjacency is their scatter.

  Both programs compute the degree counts, the degree factors and the edge weights `−d (src e) · d (tgt e)` by the
  same host operations in the same order over the same edge list; so the two weight vectors are one term. The
  kernel's adjacency is that vector scattered into 2048 · 2048 zeros at `tgt e · 2048 + src e`, reshaped.
-/
import proofs.«405329_j49641232007490_3_alg».proof.Proof.Gen.KernelIdeal.Frame.Runs
import proofs.«405329_j49641232007490_3_alg».proof.Proof.RefReadPatched
import Idealize.ShloMosaic.Lib.StableHlo.Run

set_option maxRecDepth 65536

noncomputable section

namespace Cert.Cheb.KernelWeights

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 16000000 in
/-- The dense adjacency as the region finds it: the kernel's weight vector scattered at the linearized edge positions. -/
theorem V_v36 (c : Dev nD) :
    (V m c main_v36 : S2048x2048.Idx → Elt F .f32)
      = shapeCast S2048x2048
          (Host.scatterAdd scatter_S4194304_S65536x1_S65536_n_0_0_1
            (broadcastInDim S4194304 ![] bcast_S_S4194304 (constant S_ .f32 0x00000000#32))
            (broadcastInDim S65536x1 ![0] bcast_S65536_S65536x1_0
              (addi
                (muli
                  (shapeCast S65536 (extractStridedSlice S1x65536 ![1, 0] (m (c, Proc.devRef .tc main_arg1)) slices_S2x65536_S1x65536_1_0) shapeCasts_S1x65536_S65536)
                  (broadcastInDim S65536 ![] bcast_S_S65536 (constantI S_ 32 2048#32)))
                (shapeCast S65536 (extractStridedSlice S1x65536 ![0, 0] (m (c, Proc.devRef .tc main_arg1)) slices_S2x65536_S1x65536_0_0) shapeCasts_S1x65536_S65536)))
            (V m c main_v29))
          shapeCasts_S4194304_S2048x2048 := by
  dsimp only [V]
  simp only [hostOps0, hostOps0_1, hostOps0_2, List.flatten_cons, List.flatten_nil, List.append_nil, List.cons_append, List.nil_append]
  after_results_simp
  rfl

set_option maxHeartbeats 16000000 in
/-- The kernel's weight vector is the reference's staged weight vector of the same edge list. -/
theorem V_v29 (c : Dev nD) :
    (V m c main_v29 : S65536.Idx → Elt F .f32)
      = Cert.ReferenceIdeal.ReadP.val_main_v33 (F := F) (m (c, Proc.devRef .tc main_arg1)) := by
  dsimp only [V]
  simp only [hostOps0, hostOps0_1, hostOps0_2, List.flatten_cons, List.flatten_nil, List.append_nil, List.cons_append, List.nil_append]
  after_results_simp
  simp only [TRef.ofBuf, TRef.toBuf, cast_eq, id]
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_v7, Cert.ReferenceIdeal.ReadP.val_main_cst, Cert.ReferenceIdeal.ReadP.val_main_v8, Cert.ReferenceIdeal.ReadP.val_main_cst_0, Cert.ReferenceIdeal.ReadP.val_main_v9, Cert.ReferenceIdeal.ReadP.val_main_v10, Cert.ReferenceIdeal.ReadP.val_main_v11, Cert.ReferenceIdeal.ReadP.val_main_cst_1, Cert.ReferenceIdeal.ReadP.val_main_v12, Cert.ReferenceIdeal.ReadP.val_main_v13, Cert.ReferenceIdeal.ReadP.val_main_cst_2, Cert.ReferenceIdeal.ReadP.val_main_v14, Cert.ReferenceIdeal.ReadP.val_main_v15, Cert.ReferenceIdeal.ReadP.val_main_v16, Cert.ReferenceIdeal.ReadP.val_main_cst_3, Cert.ReferenceIdeal.ReadP.val_main_call0_v0, Cert.ReferenceIdeal.ReadP.val_main_call0_v1, Cert.ReferenceIdeal.ReadP.val_main_v17, Cert.ReferenceIdeal.ReadP.val_main_c, Cert.ReferenceIdeal.ReadP.val_main_v18, Cert.ReferenceIdeal.ReadP.val_main_v19, Cert.ReferenceIdeal.ReadP.val_main_c_4, Cert.ReferenceIdeal.ReadP.val_main_v20, Cert.ReferenceIdeal.ReadP.val_main_v21, Cert.ReferenceIdeal.ReadP.val_main_v22, Cert.ReferenceIdeal.ReadP.val_main_v23, Cert.ReferenceIdeal.ReadP.val_main_v24, Cert.ReferenceIdeal.ReadP.val_main_v25, Cert.ReferenceIdeal.ReadP.val_main_c_5, Cert.ReferenceIdeal.ReadP.val_main_v26, Cert.ReferenceIdeal.ReadP.val_main_v27, Cert.ReferenceIdeal.ReadP.val_main_c_6, Cert.ReferenceIdeal.ReadP.val_main_v28, Cert.ReferenceIdeal.ReadP.val_main_v29, Cert.ReferenceIdeal.ReadP.val_main_v30, Cert.ReferenceIdeal.ReadP.val_main_v31, Cert.ReferenceIdeal.ReadP.val_main_v32, Cert.ReferenceIdeal.ReadP.val_main_v33]
  rfl

end Cert.Cheb.KernelWeights

end
-- ==== Proof.KernelProjection.lean ====
/-
  The kernel's two small projections and its bias rows, at one entry.

  The kernel multiplies the features once against the two projection matrices set side by side,
  `x · [W0 | W1]`, and cuts the product into its first ten columns, `x · W0`, and its last ten, `x · W1`: column
  `g` of the joined matrix is column `g` of `W0`, and column `10 + g` is column `g` of `W1`, so entry `(r, g)` of either
  slice is the plain sum `∑ f, x r f · W f g`. A bias vector stood up as a one-row matrix reads, at `(0, g)`, its
  entry `g`.
-/
import proofs.«405329_j49641232007490_3_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.Cheb.KernelProjection

open Cert.KernelIdeal Cert.KernelIdeal.Gen Idealize.ShloMosaic Idealize.ShloMosaic.ValueIdx

/-! ## The joined product at one entry -/

/-- The left operand's row coordinate is the result's row. -/
theorem dot_lhs_0 (i : S2048x20.Idx) (q : dot_S2048x2048_S2048x20_S2048x20_1_0_0_1_n_n.contr.Idx) :
    (dot_S2048x2048_S2048x20_S2048x20_1_0_0_1_n_n.lhsIdx i q 0).val = (i 0).val := by
  unfold DotDims.lhsIdx
  rw [dif_neg (show ¬(0 : Fin S2048x2048.rank) ∈ dot_S2048x2048_S2048x20_S2048x20_1_0_0_1_n_n.lhsBatch by decide), dif_pos (show (0 : Fin S2048x2048.rank) ∈ dot_S2048x2048_S2048x20_S2048x20_1_0_0_1_n_n.lhsNonContracting by decide)]
  rfl

/-- The left operand's column coordinate is the contraction index. -/
theorem dot_lhs_1 (i : S2048x20.Idx) (q : dot_S2048x2048_S2048x20_S2048x20_1_0_0_1_n_n.contr.Idx) :
    (dot_S2048x2048_S2048x20_S2048x20_1_0_0_1_n_n.lhsIdx i q 1).val = (q ⟨0, by decide⟩).val :=
  dot_S2048x2048_S2048x20_S2048x20_1_0_0_1_n_n.lhsIdx_val_of_single rfl i q

/-- The right operand's row coordinate is the contraction index. -/
theorem dot_rhs_0 (i : S2048x20.Idx) (q : dot_S2048x2048_S2048x20_S2048x20_1_0_0_1_n_n.contr.Idx) :
    (dot_S2048x2048_S2048x20_S2048x20_1_0_0_1_n_n.rhsIdx i q 0).val = (q ⟨0, by decide⟩).val :=
  dot_S2048x2048_S2048x20_S2048x20_1_0_0_1_n_n.rhsIdx_val_of_single rfl i q

/-- The right operand's column coordinate is the result's column. -/
theorem dot_rhs_1 (i : S2048x20.Idx) (q : dot_S2048x2048_S2048x20_S2048x20_1_0_0_1_n_n.contr.Idx) :
    (dot_S2048x2048_S2048x20_S2048x20_1_0_0_1_n_n.rhsIdx i q 1).val = (i 1).val := by
  unfold DotDims.rhsIdx
  rw [dif_neg (show ¬(1 : Fin S2048x20.rank) ∈ dot_S2048x2048_S2048x20_S2048x20_1_0_0_1_n_n.rhsBatch by decide), dif_pos (show (1 : Fin S2048x20.rank) ∈ dot_S2048x2048_S2048x20_S2048x20_1_0_0_1_n_n.rhsNonContracting by decide)]
  rfl

/-- Entry `(r, c)` of the product `x · y` is `∑ f, x r f · y f c`. -/
theorem dot_apply (x0 : FVec Ideal S2048x2048 .f32) (y : FVec Ideal S2048x20 .f32) (r : Fin 2048) (c : Fin 20) :
    Host.dotGeneral (F := Ideal) dot_S2048x2048_S2048x20_S2048x20_1_0_0_1_n_n none x0 y (ix2 r c)
      = ∑ f : Fin 2048, x0 (ix2 r f) * y (ix2 f c) := by
  simp only [Host.dotGeneral]
  rw [Ideal.dotGeneral_apply, ← Equiv.sum_comp (ValueIdx.contrEquiv1 dot_S2048x2048_S2048x20_S2048x20_1_0_0_1_n_n 2048 rfl rfl).symm]
  refine Finset.sum_congr rfl fun k _ => ?_
  have hk := ValueIdx.contrEquiv1_symm_val dot_S2048x2048_S2048x20_S2048x20_1_0_0_1_n_n 2048 rfl rfl k
  have el : dot_S2048x2048_S2048x20_S2048x20_1_0_0_1_n_n.lhsIdx (ix2 r c) ((ValueIdx.contrEquiv1 dot_S2048x2048_S2048x20_S2048x20_1_0_0_1_n_n 2048 rfl rfl).symm k) = ix2 r k := funext fun a => Fin.ext (by
    match a with
    | ⟨0, _⟩ => exact dot_lhs_0 _ _
    | ⟨1, _⟩ => exact (dot_lhs_1 _ _).trans hk)
  have er : dot_S2048x2048_S2048x20_S2048x20_1_0_0_1_n_n.rhsIdx (ix2 r c) ((ValueIdx.contrEquiv1 dot_S2048x2048_S2048x20_S2048x20_1_0_0_1_n_n 2048 rfl rfl).symm k) = ix2 k c := funext fun a => Fin.ext (by
    match a with
    | ⟨0, _⟩ => exact (dot_rhs_0 _ _).trans hk
    | ⟨1, _⟩ => exact dot_rhs_1 _ _)
  rw [el, er]

/-! ## The joined matrix `[W0 | W1]` at one entry -/

/-- Column `g` of the joined matrix is column `g` of the first piece. -/
theorem joined_left (x2 x3 : FVec Ideal S2048x10 .f32) (f : Fin 2048) (g : Fin 10) (c : Fin 20) (hc : c.val = g.val) :
    concatenate S2048x20 1 [⟨S2048x10, x2⟩, ⟨S2048x10, x3⟩] concatenates_S2048x10_S2048x10_S2048x20_d1 (ix2 f c)
      = x2 (ix2 f g) :=
  concatenate_pair_apply_left (t := S2048x20) (s₁ := S2048x10) (s₂ := S2048x10) (1 : Fin 2) x2 x3
    concatenates_S2048x10_S2048x10_S2048x20_d1 (ix2 f c) rfl (ix2 f g) (fun b => match b with
      | ⟨0, _⟩ => rfl
      | ⟨1, _⟩ => hc.symm)

/-- Column `10 + g` of the joined matrix is column `g` of the second piece. -/
theorem joined_right (x2 x3 : FVec Ideal S2048x10 .f32) (f : Fin 2048) (g : Fin 10) (c : Fin 20) (hc : c.val = 10 + g.val) :
    concatenate S2048x20 1 [⟨S2048x10, x2⟩, ⟨S2048x10, x3⟩] concatenates_S2048x10_S2048x10_S2048x20_d1 (ix2 f c)
      = x3 (ix2 f g) :=
  concatenate_pair_apply_right (t := S2048x20) (s₁ := S2048x10) (s₂ := S2048x10) (1 : Fin 2) x2 x3
    concatenates_S2048x10_S2048x10_S2048x20_d1 (ix2 f c) rfl rfl (ix2 f g) (fun b => match b with
      | ⟨0, _⟩ => fun _ => rfl
      | ⟨1, _⟩ => fun hb => absurd rfl hb)
    (by show g.val + 10 = c.val; omega)

/-- Entry `(r, g)` of the first slice of the joined product is `∑ f, x r f · W0 f g`. -/
theorem xw0_apply (x0 : FVec Ideal S2048x2048 .f32) (x2 x3 : FVec Ideal S2048x10 .f32) (r : Fin 2048) (g : Fin 10) :
    extractStridedSlice S2048x10 ![0, 0]
        (Host.dotGeneral dot_S2048x2048_S2048x20_S2048x20_1_0_0_1_n_n none x0
          (concatenate S2048x20 1 [⟨S2048x10, x2⟩, ⟨S2048x10, x3⟩] concatenates_S2048x10_S2048x10_S2048x20_d1))
        slices_S2048x20_S2048x10_0_0 (ix2 r g)
      = ∑ f : Fin 2048, x0 (ix2 r f) * x2 (ix2 f g) := by
  refine (extractStridedSlice_apply ![0, 0] _ slices_S2048x20_S2048x10_0_0 (ix2 r g)
    (ix2 r (⟨g.val, by omega⟩ : Fin 20)) (fun a => match a with
      | ⟨0, _⟩ => by show r.val = 0 + r.val; omega
      | ⟨1, _⟩ => by show g.val = 0 + g.val; omega)).trans ?_
  rw [dot_apply]
  refine Finset.sum_congr rfl fun f _ => ?_
  rw [joined_left x2 x3 f g _ rfl]

/-- Entry `(r, g)` of the second slice of the joined product is `∑ f, x r f · W1 f g`. -/
theorem xw1_apply (x0 : FVec Ideal S2048x2048 .f32) (x2 x3 : FVec Ideal S2048x10 .f32) (r : Fin 2048) (g : Fin 10) :
    extractStridedSlice S2048x10 ![0, 10]
        (Host.dotGeneral dot_S2048x2048_S2048x20_S2048x20_1_0_0_1_n_n none x0
          (concatenate S2048x20 1 [⟨S2048x10, x2⟩, ⟨S2048x10, x3⟩] concatenates_S2048x10_S2048x10_S2048x20_d1))
        slices_S2048x20_S2048x10_0_10 (ix2 r g)
      = ∑ f : Fin 2048, x0 (ix2 r f) * x3 (ix2 f g) := by
  refine (extractStridedSlice_apply ![0, 10] _ slices_S2048x20_S2048x10_0_10 (ix2 r g)
    (ix2 r (⟨10 + g.val, by omega⟩ : Fin 20)) (fun a => match a with
      | ⟨0, _⟩ => by show r.val = 0 + r.val; omega
      | ⟨1, _⟩ => by show 10 + g.val = 10 + g.val; rfl)).trans ?_
  rw [dot_apply]
  refine Finset.sum_congr rfl fun f _ => ?_
  rw [joined_right x2 x3 f g _ rfl]

/-- A ten-vector stood up as a 1 × 10 matrix reads, at `(0, g)`, its entry `g`. -/
theorem bias_apply (v : FVec Ideal S10 .f32) (g : Fin 10) :
    shapeCast S1x10 v shapeCasts_S10_S1x10 (ix2 (0 : Fin 1) g) = v (ix1 g) :=
  shapeCast_a_1a_apply v shapeCasts_S10_S1x10 0 g

end Cert.Cheb.KernelProjection

end
-- ==== Proof.KernelAdjacency.lean ====
/-
  The kernel's dense adjacency matrix at one entry.

  The kernel scatters the edge weights into a flat array of 2048 · 2048 zeros at the linearized position
  `tgt e · 2048 + src e` (32-bit word arithmetic; on an in-range edge list the product and the sum stay far below
  2³¹, so the word is that number and no index is dropped) and reshapes the result to 2048 × 2048. Entry `(c, k)`
  has row-major position `c · 2048 + k`, and `tgt e · 2048 + src e = c · 2048 + k` exactly when `tgt e = c` and
  `src e = k`; so the entry is the sum of the weights of the edges from `k` to `c`.
-/
import proofs.«405329_j49641232007490_3_alg».proof.Proof.Gen.KernelIdeal
import proofs.«405329_j49641232007490_3_alg».proof.Proof.HeadSpec
import Idealize.ShloMosaic.Lib.Pipeline.Value
import Mathlib.Algebra.BigOperators.Group.Finset.Basic
import Mathlib.Algebra.BigOperators.Group.Finset.Piecewise

noncomputable section

namespace Cert.Cheb.KernelAdjacency

open Cert.KernelIdeal Cert.KernelIdeal.Gen Idealize.ShloMosaic Idealize.ShloMosaic.ValueIdx Cert.Cheb

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- Row 1 of the edge list (the targets), sliced and flattened. -/
theorem col_at (x1 : IVec S2x65536 32) (e : Fin 65536) :
    (shapeCast S65536 (extractStridedSlice S1x65536 ![1, 0] x1 slices_S2x65536_S1x65536_1_0) shapeCasts_S1x65536_S65536) (ix1 e) = x1 (ix2 1 e) := by
  refine (shapeCast_apply _ shapeCasts_S1x65536_S65536 (ix1 e) (ix2 0 e) ?_).trans ?_
  · rewrite [Shape.rowMajor_val_two, Shape.rowMajor_val_one]
    show 0 * 65536 + e.val = e.val
    omega
  · exact extractStridedSlice_apply ![1, 0] x1 slices_S2x65536_S1x65536_1_0 (ix2 0 e) (ix2 1 e) (fun a => match a with
      | ⟨0, _⟩ => by show 1 = 1 + 0; rfl
      | ⟨1, _⟩ => by show e.val = 0 + e.val; omega)

/-- Row 0 of the edge list (the sources), sliced and flattened. -/
theorem row_at (x1 : IVec S2x65536 32) (e : Fin 65536) :
    (shapeCast S65536 (extractStridedSlice S1x65536 ![0, 0] x1 slices_S2x65536_S1x65536_0_0) shapeCasts_S1x65536_S65536) (ix1 e) = x1 (ix2 0 e) := by
  refine (shapeCast_apply _ shapeCasts_S1x65536_S65536 (ix1 e) (ix2 0 e) ?_).trans ?_
  · rewrite [Shape.rowMajor_val_two, Shape.rowMajor_val_one]
    show 0 * 65536 + e.val = e.val
    omega
  · exact extractStridedSlice_apply ![0, 0] x1 slices_S2x65536_S1x65536_0_0 (ix2 0 e) (ix2 0 e) (fun a => match a with
      | ⟨0, _⟩ => by show 0 = 0 + 0; rfl
      | ⟨1, _⟩ => by show e.val = 0 + e.val; omega)

/-- The scatter's index column at edge `e`: the word `tgt e · 2048 + src e`. -/
theorem lin_at (x1 : IVec S2x65536 32) (e : Fin 65536) (z : Fin 1) :
    (broadcastInDim S65536x1 ![0] bcast_S65536_S65536x1_0 (addi (muli (shapeCast S65536 (extractStridedSlice S1x65536 ![1, 0] x1 slices_S2x65536_S1x65536_1_0) shapeCasts_S1x65536_S65536) (broadcastInDim S65536 ![] bcast_S_S65536 (constantI S_ 32 2048#32))) (shapeCast S65536 (extractStridedSlice S1x65536 ![0, 0] x1 slices_S2x65536_S1x65536_0_0) shapeCasts_S1x65536_S65536))) (ix2 e z) = x1 (ix2 1 e) * 2048#32 + x1 (ix2 0 e) := by
  refine (broadcastInDim_apply _ bcast_S65536_S65536x1_0 _ (ix2 e z) (ix1 e) (fun a => match a with
    | ⟨0, _⟩ => by show e.val = if (65536 : Nat) = 1 then 0 else e.val; rw [if_neg (by decide)])).trans ?_
  show IntOp.addi (IntOp.muli ((shapeCast S65536 (extractStridedSlice S1x65536 ![1, 0] x1 slices_S2x65536_S1x65536_1_0) shapeCasts_S1x65536_S65536) (ix1 e)) (2048#32)) ((shapeCast S65536 (extractStridedSlice S1x65536 ![0, 0] x1 slices_S2x65536_S1x65536_0_0) shapeCasts_S1x65536_S65536) (ix1 e)) = _
  rw [col_at, row_at]
  rfl

/-- With both entries node numbers the linearized word is the number `tgt · 2048 + src`: no wrap. -/
theorem lin_toNat (a b : BitVec 32) (ha : a.toNat < 2048) (hb : b.toNat < 2048) :
    (a * 2048#32 + b).toNat = a.toNat * 2048 + b.toNat := by
  rw [BitVec.toNat_add, BitVec.toNat_mul]
  show (a.toNat * 2048 % 2 ^ 32 + b.toNat) % 2 ^ 32 = _
  omega

/-- … and as a signed word it is that number too. -/
theorem lin_toInt (a b : BitVec 32) (ha : a.toNat < 2048) (hb : b.toNat < 2048) :
    (a * 2048#32 + b).toInt = ((a.toNat * 2048 + b.toNat : Nat) : Int) := by
  rw [← lin_toNat a b ha hb]
  exact BitVec.toInt_eq_toNat_of_lt (by rw [lin_toNat a b ha hb]; omega)

/-- The scatter's start on its one axis: the signed index word of the update. -/
theorem scatter_start0 (j : S65536.Idx) (idx : IVec S65536x1 32) :
    scatter_S4194304_S65536x1_S65536_n_0_0_1.start j idx 0 = (idx (ix2 (j 0) 0)).toInt := by
  unfold ScatterDims.start
  rw [dif_pos (show (0 : Fin S4194304.rank) ∈ scatter_S4194304_S65536x1_S65536_n_0_0_1.scatterDimsToOperandDims from List.mem_singleton.mpr rfl)]
  have hsi : scatter_S4194304_S65536x1_S65536_n_0_0_1.siIdx j ⟨List.idxOf (0 : Fin S4194304.rank) scatter_S4194304_S65536x1_S65536_n_0_0_1.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The scatter has no window axis: the window coordinate is zero. -/
theorem scatter_window0 (j : S65536.Idx) : scatter_S4194304_S65536x1_S65536_n_0_0_1.window j 0 = 0 := by
  unfold ScatterDims.window
  rw [dif_neg (show ¬ (0 : Fin S4194304.rank) ∈ scatter_S4194304_S65536x1_S65536_n_0_0_1.sKept by decide)]

/-- On an in-range edge list the update of edge `e` lands at flat position `tgt e · 2048 + src e`, inside the array. -/
theorem scatter_resultIdx (x1 : IVec S2x65536 32) (h : InRange x1) (e : Fin 65536) :
    scatter_S4194304_S65536x1_S65536_n_0_0_1.resultIdx? (ix1 e) (broadcastInDim S65536x1 ![0] bcast_S65536_S65536x1_0 (addi (muli (shapeCast S65536 (extractStridedSlice S1x65536 ![1, 0] x1 slices_S2x65536_S1x65536_1_0) shapeCasts_S1x65536_S65536) (broadcastInDim S65536 ![] bcast_S_S65536 (constantI S_ 32 2048#32))) (shapeCast S65536 (extractStridedSlice S1x65536 ![0, 0] x1 slices_S2x65536_S1x65536_0_0) shapeCasts_S1x65536_S65536)))
      = some (ix1 ⟨(node x1 1 e).val * 2048 + (node x1 0 e).val, by
          have := (node x1 1 e).isLt; have := (node x1 0 e).isLt; omega⟩) := by
  have h1 := h 1 e
  have h0 := h 0 e
  have hs0 : scatter_S4194304_S65536x1_S65536_n_0_0_1.start (ix1 e) (broadcastInDim S65536x1 ![0] bcast_S65536_S65536x1_0 (addi (muli (shapeCast S65536 (extractStridedSlice S1x65536 ![1, 0] x1 slices_S2x65536_S1x65536_1_0) shapeCasts_S1x65536_S65536) (broadcastInDim S65536 ![] bcast_S_S65536 (constantI S_ 32 2048#32))) (shapeCast S65536 (extractStridedSlice S1x65536 ![0, 0] x1 slices_S2x65536_S1x65536_0_0) shapeCasts_S1x65536_S65536))) 0
      = (((x1 (ix2 1 e)).toNat * 2048 + (x1 (ix2 0 e)).toNat : Nat) : Int) := by
    rw [scatter_start0]
    show ((broadcastInDim S65536x1 ![0] bcast_S65536_S65536x1_0 (addi (muli (shapeCast S65536 (extractStridedSlice S1x65536 ![1, 0] x1 slices_S2x65536_S1x65536_1_0) shapeCasts_S1x65536_S65536) (broadcastInDim S65536 ![] bcast_S_S65536 (constantI S_ 32 2048#32))) (shapeCast S65536 (extractStridedSlice S1x65536 ![0, 0] x1 slices_S2x65536_S1x65536_0_0) shapeCasts_S1x65536_S65536))) (ix2 e 0)).toInt = _
    rw [lin_at, lin_toInt _ _ h1 h0]
  have hw0 : scatter_S4194304_S65536x1_S65536_n_0_0_1.window (ix1 e) 0 = 0 := scatter_window0 _
  have H : ∀ a, 0 ≤ scatter_S4194304_S65536x1_S65536_n_0_0_1.start (ix1 e) (broadcastInDim S65536x1 ![0] bcast_S65536_S65536x1_0 (addi (muli (shapeCast S65536 (extractStridedSlice S1x65536 ![1, 0] x1 slices_S2x65536_S1x65536_1_0) shapeCasts_S1x65536_S65536) (broadcastInDim S65536 ![] bcast_S_S65536 (constantI S_ 32 2048#32))) (shapeCast S65536 (extractStridedSlice S1x65536 ![0, 0] x1 slices_S2x65536_S1x65536_0_0) shapeCasts_S1x65536_S65536))) a + scatter_S4194304_S65536x1_S65536_n_0_0_1.window (ix1 e) a ∧
      scatter_S4194304_S65536x1_S65536_n_0_0_1.start (ix1 e) (broadcastInDim S65536x1 ![0] bcast_S65536_S65536x1_0 (addi (muli (shapeCast S65536 (extractStridedSlice S1x65536 ![1, 0] x1 slices_S2x65536_S1x65536_1_0) shapeCasts_S1x65536_S65536) (broadcastInDim S65536 ![] bcast_S_S65536 (constantI S_ 32 2048#32))) (shapeCast S65536 (extractStridedSlice S1x65536 ![0, 0] x1 slices_S2x65536_S1x65536_0_0) shapeCasts_S1x65536_S65536))) a + scatter_S4194304_S65536x1_S65536_n_0_0_1.window (ix1 e) a < S4194304.size a := by
    intro a
    match a with
    | ⟨0, _⟩ =>
      show 0 ≤ scatter_S4194304_S65536x1_S65536_n_0_0_1.start (ix1 e) (broadcastInDim S65536x1 ![0] bcast_S65536_S65536x1_0 (addi (muli (shapeCast S65536 (extractStridedSlice S1x65536 ![1, 0] x1 slices_S2x65536_S1x65536_1_0) shapeCasts_S1x65536_S65536) (broadcastInDim S65536 ![] bcast_S_S65536 (constantI S_ 32 2048#32))) (shapeCast S65536 (extractStridedSlice S1x65536 ![0, 0] x1 slices_S2x65536_S1x65536_0_0) shapeCasts_S1x65536_S65536))) 0 + scatter_S4194304_S65536x1_S65536_n_0_0_1.window (ix1 e) 0 ∧
        scatter_S4194304_S65536x1_S65536_n_0_0_1.start (ix1 e) (broadcastInDim S65536x1 ![0] bcast_S65536_S65536x1_0 (addi (muli (shapeCast S65536 (extractStridedSlice S1x65536 ![1, 0] x1 slices_S2x65536_S1x65536_1_0) shapeCasts_S1x65536_S65536) (broadcastInDim S65536 ![] bcast_S_S65536 (constantI S_ 32 2048#32))) (shapeCast S65536 (extractStridedSlice S1x65536 ![0, 0] x1 slices_S2x65536_S1x65536_0_0) shapeCasts_S1x65536_S65536))) 0 + scatter_S4194304_S65536x1_S65536_n_0_0_1.window (ix1 e) 0 < (4194304 : Nat)
      rw [hs0, hw0]
      constructor <;> omega
  unfold ScatterDims.resultIdx?
  rw [dif_pos H]
  congr 1
  funext a
  refine Fin.ext ?_
  match a with
  | ⟨0, _⟩ =>
    show (scatter_S4194304_S65536x1_S65536_n_0_0_1.start (ix1 e) (broadcastInDim S65536x1 ![0] bcast_S65536_S65536x1_0 (addi (muli (shapeCast S65536 (extractStridedSlice S1x65536 ![1, 0] x1 slices_S2x65536_S1x65536_1_0) shapeCasts_S1x65536_S65536) (broadcastInDim S65536 ![] bcast_S_S65536 (constantI S_ 32 2048#32))) (shapeCast S65536 (extractStridedSlice S1x65536 ![0, 0] x1 slices_S2x65536_S1x65536_0_0) shapeCasts_S1x65536_S65536))) 0 + scatter_S4194304_S65536x1_S65536_n_0_0_1.window (ix1 e) 0).toNat = (node x1 1 e).val * 2048 + (node x1 0 e).val
    rw [hs0, hw0, node_val h, node_val h]
    omega

/-- Entry `(c, k)` of the dense adjacency: the sum of the weights of the edges with target `c` and source `k`. -/
theorem adjacency_apply (x1 : IVec S2x65536 32) (w : FVec Ideal S65536 .f32) (h : InRange x1) (c k : Fin 2048) :
    shapeCast S2048x2048
        (Host.scatterAdd scatter_S4194304_S65536x1_S65536_n_0_0_1
          (broadcastInDim S4194304 ![] bcast_S_S4194304 (constant S_ .f32 0x00000000#32))
          (broadcastInDim S65536x1 ![0] bcast_S65536_S65536x1_0
            (addi
              (muli
                (shapeCast S65536 (extractStridedSlice S1x65536 ![1, 0] x1 slices_S2x65536_S1x65536_1_0) shapeCasts_S1x65536_S65536)
                (broadcastInDim S65536 ![] bcast_S_S65536 (constantI S_ 32 2048#32)))
              (shapeCast S65536 (extractStridedSlice S1x65536 ![0, 0] x1 slices_S2x65536_S1x65536_0_0) shapeCasts_S1x65536_S65536)))
          w)
        shapeCasts_S4194304_S2048x2048 (ix2 c k)
      = ∑ e : Fin 65536, if node x1 1 e = c ∧ node x1 0 e = k then w (ix1 e) else 0 := by
  have hp : c.val * 2048 + k.val < 4194304 := by have := c.isLt; have := k.isLt; omega
  refine (shapeCast_apply _ shapeCasts_S4194304_S2048x2048 (ix2 c k) (ix1 ⟨c.val * 2048 + k.val, hp⟩) ?_).trans ?_
  · rewrite [Shape.rowMajor_val_two, Shape.rowMajor_val_one]
    rfl
  unfold Host.scatterAdd
  rw [Ideal.hostScatterAdd_def]
  unfold Ideal.hostScatterAdd
  have hz : (broadcastInDim S4194304 ![] bcast_S_S4194304 (constant (F := Ideal) S_ .f32 0x00000000#32))
      (ix1 ⟨c.val * 2048 + k.val, hp⟩) = 0 := Ideal.ofBits_zero_f32
  refine (congrArg (· + _) hz).trans ?_
  rw [zero_add, Finset.sum_filter, sum_idx1]
  refine Finset.sum_congr rfl fun e _ => ?_
  rw [scatter_resultIdx x1 h e]
  refine if_congr ?_ rfl rfl
  constructor
  · intro hk
    have hv : (node x1 1 e).val * 2048 + (node x1 0 e).val = c.val * 2048 + k.val :=
      congrArg (fun i : S4194304.Idx => (i 0).val) (Option.some.inj hk)
    have := (node x1 0 e).isLt
    have := k.isLt
    exact ⟨Fin.ext (by omega), Fin.ext (by omega)⟩
  · rintro ⟨rfl, rfl⟩
    rfl

end Cert.Cheb.KernelAdjacency

end
-- ==== Proof.RefAggregate.lean ====
/-
  The reference's edge aggregation at one entry.

  The accumulating scatter adds, into row `tgt e` of a zero matrix, the row `w e · x (src e) ·` of every edge
  `e`; the rows it gathers from `x` are the source nodes', read as signed indices (negative ones wrapped, then
  clamped: on an in-range edge list both are the identity), and a scatter index is dropped only outside
  `[0, 2048)`, which an in-range list never is. So entry `(c, f)` is the sum over the edges into `c` of
  `w e · x (src e) f`.
-/
import proofs.«405329_j49641232007490_3_alg».proof.Proof.RefReadPatched
import proofs.«405329_j49641232007490_3_alg».proof.Proof.HeadSpec
import Mathlib.Algebra.BigOperators.Group.Finset.Basic
import Mathlib.Algebra.BigOperators.Group.Finset.Piecewise

noncomputable section

namespace Cert.Cheb.RefAggregate

open Cert.ReferenceIdeal Cert.ReferenceIdeal.ReadP Idealize.ShloMosaic Idealize.ShloMosaic.ValueIdx Cert.Cheb

/-- Row 1 of the edge list (the targets), as the flat vector the program reshapes it to. -/
theorem v3_at (x1 : (⟨S2x65536, .i32⟩ : BufTy).Contents (Elt Ideal)) (e : Fin 65536) :
    val_main_v3 (F := Ideal) x1 (ix1 e) = x1 (ix2 1 e) := by
  rw [val_main_v3_apply, val_main_v2_apply]
  congr 1
  funext a
  match a with
  | ⟨0, _⟩ => rfl
  | ⟨1, _⟩ => exact Fin.ext (by show e.val % 65536 = e.val; omega)

/-- Row 0 of the edge list (the sources), as the flat vector the program reshapes it to. -/
theorem v1_at (x1 : (⟨S2x65536, .i32⟩ : BufTy).Contents (Elt Ideal)) (e : Fin 65536) :
    val_main_v1 (F := Ideal) x1 (ix1 e) = x1 (ix2 0 e) := by
  rw [val_main_v1_apply, val_main_v0_apply]
  congr 1
  funext a
  match a with
  | ⟨0, _⟩ => rfl
  | ⟨1, _⟩ => exact Fin.ext (by show e.val % 65536 = e.val; omega)

/-- The scatter's index column: entry `(e, 0)` is the target of edge `e`. -/
theorem v45_at (x1 : (⟨S2x65536, .i32⟩ : BufTy).Contents (Elt Ideal)) (e : Fin 65536) (z : Fin 1) :
    val_main_v45 (F := Ideal) x1 (ix2 e z) = x1 (ix2 1 e) := by
  rw [val_main_v45_apply]
  refine Eq.trans ?_ (v3_at x1 e)
  congr 1
  funext a
  match a with
  | ⟨0, _⟩ => rfl

/-- A word below 2048 is not negative as a signed word. -/
theorem slt_zero_of_lt (v : BitVec 32) (hv : v.toNat < 2048) : IntOp.cmpi .slt v 0#32 = 0#1 := by
  unfold IntOp.cmpi
  have : v.slt 0#32 = false := by
    rw [BitVec.slt_eq_decide]
    have := BitVec.toInt_eq_toNat_of_lt (x := v) (by omega)
    simp only [decide_eq_false_iff_not, not_lt]
    rw [this]; simp
  simp only [this]; rfl

/-- On an in-range edge list the wrapped source index is the source itself. -/
theorem v39_at (x1 : (⟨S2x65536, .i32⟩ : BufTy).Contents (Elt Ideal)) (h : InRange x1) (e : Fin 65536) :
    val_main_v39 (F := Ideal) x1 (ix1 e) = x1 (ix2 0 e) := by
  rw [val_main_v39_apply, val_main_v36_apply, val_main_v35_apply, val_main_c_7_apply, v1_at,
    slt_zero_of_lt _ (h 0 e), select_zero]

/-- The gather's index column: entry `(e, 0)` is the source of edge `e`. -/
theorem v40_at (x1 : (⟨S2x65536, .i32⟩ : BufTy).Contents (Elt Ideal)) (h : InRange x1) (e : Fin 65536) (z : Fin 1) :
    val_main_v40 (F := Ideal) x1 (ix2 e z) = x1 (ix2 0 e) := by
  rw [val_main_v40_apply]
  refine Eq.trans ?_ (v39_at x1 h e)
  congr 1
  funext a
  match a with
  | ⟨0, _⟩ => rfl

/-- The scatter's start on axis 0 (the inserted axis, the one the index names): the signed index word of the update's row. -/
theorem scatter_start0 (j : S65536x2048.Idx) (idx : IVec S65536x1 32) :
    scatter_S2048x2048_S65536x1_S65536x2048_1_0_0_1.start j idx 0 = (idx (ix2 (j 0) 0)).toInt := by
  unfold ScatterDims.start
  rw [dif_pos (show (0 : Fin S2048x2048.rank) ∈ scatter_S2048x2048_S65536x1_S65536x2048_1_0_0_1.scatterDimsToOperandDims from List.mem_singleton.mpr rfl)]
  have hsi : scatter_S2048x2048_S65536x1_S65536x2048_1_0_0_1.siIdx j ⟨List.idxOf (0 : Fin S2048x2048.rank) scatter_S2048x2048_S65536x1_S65536x2048_1_0_0_1.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The scatter's start on axis 1 (the window axis): zero, the index does not name it. -/
theorem scatter_start1 (j : S65536x2048.Idx) (idx : IVec S65536x1 32) :
    scatter_S2048x2048_S65536x1_S65536x2048_1_0_0_1.start j idx 1 = 0 := by
  unfold ScatterDims.start
  rw [dif_neg (show ¬ (1 : Fin S2048x2048.rank) ∈ scatter_S2048x2048_S65536x1_S65536x2048_1_0_0_1.scatterDimsToOperandDims by decide)]

/-- The window coordinate on the inserted axis is zero. -/
theorem scatter_window0 (j : S65536x2048.Idx) : scatter_S2048x2048_S65536x1_S65536x2048_1_0_0_1.window j 0 = 0 := by
  unfold ScatterDims.window
  rw [dif_neg (show ¬ (0 : Fin S2048x2048.rank) ∈ scatter_S2048x2048_S65536x1_S65536x2048_1_0_0_1.sKept by decide)]

/-- The window coordinate on axis 1 is the update's column. -/
theorem scatter_window1 (j : S65536x2048.Idx) : scatter_S2048x2048_S65536x1_S65536x2048_1_0_0_1.window j 1 = (j 1).val := by
  unfold ScatterDims.window
  rw [dif_pos (show (1 : Fin S2048x2048.rank) ∈ scatter_S2048x2048_S65536x1_S65536x2048_1_0_0_1.sKept by decide)]
  rfl

/-- On an in-range edge list the update at `(e, f')` lands at `(target e, f')`: on axis 0 the start is the
    target's signed word, a node number, and the window adds nothing; on axis 1 the start is zero and the window
    is the update's column. -/
theorem scatter_resultIdx (x1 : (⟨S2x65536, .i32⟩ : BufTy).Contents (Elt Ideal)) (h : InRange x1) (e : Fin 65536) (f' : Fin 2048) :
    scatter_S2048x2048_S65536x1_S65536x2048_1_0_0_1.resultIdx? (ix2 e f') (val_main_v45 (F := Ideal) x1) = some (ix2 (node x1 1 e) f') := by
  have hint : (x1 (ix2 1 e)).toInt = ((x1 (ix2 1 e)).toNat : Int) :=
    BitVec.toInt_eq_toNat_of_lt (by have := h 1 e; omega)
  have hs0 : scatter_S2048x2048_S65536x1_S65536x2048_1_0_0_1.start (ix2 e f') (val_main_v45 (F := Ideal) x1) 0 = ((x1 (ix2 1 e)).toNat : Int) := by
    rw [scatter_start0]
    show (val_main_v45 (F := Ideal) x1 (ix2 e 0)).toInt = _
    rw [v45_at, hint]
  have hs1 : scatter_S2048x2048_S65536x1_S65536x2048_1_0_0_1.start (ix2 e f') (val_main_v45 (F := Ideal) x1) 1 = 0 := scatter_start1 _ _
  have hw0 : scatter_S2048x2048_S65536x1_S65536x2048_1_0_0_1.window (ix2 e f') 0 = 0 := scatter_window0 _
  have hw1 : scatter_S2048x2048_S65536x1_S65536x2048_1_0_0_1.window (ix2 e f') 1 = f'.val := scatter_window1 _
  have hlt := h 1 e
  have H : ∀ a, 0 ≤ scatter_S2048x2048_S65536x1_S65536x2048_1_0_0_1.start (ix2 e f') (val_main_v45 (F := Ideal) x1) a + scatter_S2048x2048_S65536x1_S65536x2048_1_0_0_1.window (ix2 e f') a ∧
      scatter_S2048x2048_S65536x1_S65536x2048_1_0_0_1.start (ix2 e f') (val_main_v45 (F := Ideal) x1) a + scatter_S2048x2048_S65536x1_S65536x2048_1_0_0_1.window (ix2 e f') a < S2048x2048.size a := by
    intro a
    match a with
    | ⟨0, _⟩ =>
      show 0 ≤ scatter_S2048x2048_S65536x1_S65536x2048_1_0_0_1.start (ix2 e f') (val_main_v45 (F := Ideal) x1) 0 + scatter_S2048x2048_S65536x1_S65536x2048_1_0_0_1.window (ix2 e f') 0 ∧
        scatter_S2048x2048_S65536x1_S65536x2048_1_0_0_1.start (ix2 e f') (val_main_v45 (F := Ideal) x1) 0 + scatter_S2048x2048_S65536x1_S65536x2048_1_0_0_1.window (ix2 e f') 0 < (2048 : Nat)
      rw [hs0, hw0]
      constructor <;> omega
    | ⟨1, _⟩ =>
      show 0 ≤ scatter_S2048x2048_S65536x1_S65536x2048_1_0_0_1.start (ix2 e f') (val_main_v45 (F := Ideal) x1) 1 + scatter_S2048x2048_S65536x1_S65536x2048_1_0_0_1.window (ix2 e f') 1 ∧
        scatter_S2048x2048_S65536x1_S65536x2048_1_0_0_1.start (ix2 e f') (val_main_v45 (F := Ideal) x1) 1 + scatter_S2048x2048_S65536x1_S65536x2048_1_0_0_1.window (ix2 e f') 1 < (2048 : Nat)
      rw [hs1, hw1]
      have := f'.isLt
      constructor <;> omega
  unfold ScatterDims.resultIdx?
  rw [dif_pos H]
  congr 1
  funext a
  refine Fin.ext ?_
  match a with
  | ⟨0, _⟩ =>
    show (scatter_S2048x2048_S65536x1_S65536x2048_1_0_0_1.start (ix2 e f') (val_main_v45 (F := Ideal) x1) 0 + scatter_S2048x2048_S65536x1_S65536x2048_1_0_0_1.window (ix2 e f') 0).toNat = (node x1 1 e).val
    rw [hs0, hw0, node_val h]
    omega
  | ⟨1, _⟩ =>
    show (scatter_S2048x2048_S65536x1_S65536x2048_1_0_0_1.start (ix2 e f') (val_main_v45 (F := Ideal) x1) 1 + scatter_S2048x2048_S65536x1_S65536x2048_1_0_0_1.window (ix2 e f') 1).toNat = f'.val
    rw [hs1, hw1]
    omega

/-- On an in-range edge list the gather at `(e, f')` reads `x (source e) f'`: axis 0 is collapsed with slice size
    one, its clamped start the source's signed word, a node number at most 2047; axis 1 is an offset axis with start
    zero. -/
theorem gather_operandIdx (x1 : (⟨S2x65536, .i32⟩ : BufTy).Contents (Elt Ideal)) (h : InRange x1) (e : Fin 65536) (f' : Fin 2048) :
    gather_S2048x2048_S65536x1_S65536x2048_1_0_n_n_0_1_12048.operandIdx (ix2 e f') (val_main_v40 (F := Ideal) x1) = ix2 (node x1 0 e) f' := by
  have hlt := h 0 e
  have hint : (x1 (ix2 0 e)).toInt = ((x1 (ix2 0 e)).toNat : Int) :=
    BitVec.toInt_eq_toNat_of_lt (by omega)
  funext a
  refine Fin.ext ?_
  match a with
  | ⟨0, _⟩ =>
    show gather_S2048x2048_S65536x1_S65536x2048_1_0_n_n_0_1_12048.start (ix2 e f') (val_main_v40 (F := Ideal) x1) 0 + gather_S2048x2048_S65536x1_S65536x2048_1_0_n_n_0_1_12048.batchCoord (ix2 e f') 0 + gather_S2048x2048_S65536x1_S65536x2048_1_0_n_n_0_1_12048.offCoord (ix2 e f') 0
      = (node x1 0 e).val
    rw [GatherDims.batchCoord_eq_zero _ _ _ List.not_mem_nil,
      GatherDims.offCoord_eq_zero _ _ _ (fun hk => ((GatherDims.mem_sKept _ _).mp hk).1 (List.mem_singleton.mpr rfl))]
    unfold GatherDims.start
    rw [dif_pos (show (0 : Fin S2048x2048.rank) ∈ gather_S2048x2048_S65536x1_S65536x2048_1_0_n_n_0_1_12048.startIndexMap from List.mem_singleton.mpr rfl)]
    have hsi : gather_S2048x2048_S65536x1_S65536x2048_1_0_n_n_0_1_12048.siIdx (ix2 e f') ⟨List.idxOf (0 : Fin S2048x2048.rank) gather_S2048x2048_S65536x1_S65536x2048_1_0_n_n_0_1_12048.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, v40_at x1 h, hint, node_val h]
    show min ((x1 (ix2 0 e)).toNat : Int).toNat (2048 - 1) + 0 + 0 = _
    omega
  | ⟨1, _⟩ =>
    show gather_S2048x2048_S65536x1_S65536x2048_1_0_n_n_0_1_12048.start (ix2 e f') (val_main_v40 (F := Ideal) x1) 1 + gather_S2048x2048_S65536x1_S65536x2048_1_0_n_n_0_1_12048.batchCoord (ix2 e f') 1 + gather_S2048x2048_S65536x1_S65536x2048_1_0_n_n_0_1_12048.offCoord (ix2 e f') 1
      = f'.val
    rw [GatherDims.batchCoord_eq_zero _ _ _ List.not_mem_nil]
    unfold GatherDims.start GatherDims.offCoord
    rw [dif_neg (show ¬ (1 : Fin S2048x2048.rank) ∈ gather_S2048x2048_S65536x1_S65536x2048_1_0_n_n_0_1_12048.startIndexMap by decide),
      dif_pos (show (1 : Fin S2048x2048.rank) ∈ gather_S2048x2048_S65536x1_S65536x2048_1_0_n_n_0_1_12048.sKept by decide)]
    show 0 + 0 + f'.val = f'.val
    omega

/-- The update matrix at `(e, f')`: the weight of edge `e` times feature `f'` of its source node. -/
theorem v43_at (x0 : (⟨S2048x2048, .f32⟩ : BufTy).Contents (Elt Ideal)) (x1 : (⟨S2x65536, .i32⟩ : BufTy).Contents (Elt Ideal))
    (h : InRange x1) (e : Fin 65536) (f' : Fin 2048) :
    val_main_v43 (F := Ideal) x0 x1 (ix2 e f')
      = val_main_v33 (F := Ideal) x1 (ix1 e) * x0 (ix2 (node x1 0 e) f') := by
  rw [val_main_v43_apply, val_main_v42_apply, val_main_v34_apply, Ideal.mulf_def]
  have hg : val_main_v41 (F := Ideal) x0 x1 (ix2 e f') = x0 (ix2 (node x1 0 e) f') := by
    unfold val_main_v41 Host.gather
    exact congrArg x0 (gather_operandIdx x1 h e f')
  rw [hg]
  congr 2
  funext a
  match a with
  | ⟨0, _⟩ => rfl

/-- The zero matrix the scatter accumulates into. -/
theorem v44_at (i : S2048x2048.Idx) : val_main_v44 (F := Ideal) i = 0 := by
  rw [val_main_v44_apply, val_main_cst_9_apply]
  exact Ideal.ofBits_zero_f32

/-- Entry `(c, f)` of the aggregated features: the sum over the edges whose target is `c` of the edge weight times
    the source node's feature `f`. -/
theorem aggregate_apply (x0 : (⟨S2048x2048, .f32⟩ : BufTy).Contents (Elt Ideal)) (x1 : (⟨S2x65536, .i32⟩ : BufTy).Contents (Elt Ideal))
    (h : InRange x1) (c f : Fin 2048) :
    val_main_v46 (F := Ideal) x0 x1 (ix2 c f)
      = ∑ e : Fin 65536, if node x1 1 e = c then val_main_v33 (F := Ideal) x1 (ix1 e) * x0 (ix2 (node x1 0 e) f) else 0 := by
  unfold val_main_v46 Host.scatterAdd
  rw [Ideal.hostScatterAdd_def]
  unfold Ideal.hostScatterAdd
  show val_main_v44 (F := Ideal) (ix2 c f) + _ = _
  rw [v44_at, zero_add, Finset.sum_filter, sum_idx2]
  refine Finset.sum_congr rfl fun e _ => ?_
  have hguard : ∀ f' : Fin 2048,
      (scatter_S2048x2048_S65536x1_S65536x2048_1_0_0_1.resultIdx? (ix2 e f') (val_main_v45 (F := Ideal) x1) = some (ix2 c f)) ↔ (node x1 1 e = c ∧ f' = f) := by
    intro f'
    rw [scatter_resultIdx x1 h e f', Option.some.injEq]
    constructor
    · intro hk
      exact ⟨congrFun hk 0, congrFun hk 1⟩
    · rintro ⟨rfl, rfl⟩; rfl
  simp only [hguard, v43_at x0 x1 h]
  by_cases hc : node x1 1 e = c
  · simp only [hc, true_and, if_true]
    rw [Finset.sum_ite_eq' Finset.univ f]
    simp
  · simp only [hc, false_and, if_false, Finset.sum_const_zero]

end Cert.Cheb.RefAggregate

end
-- ==== Proof.RefHead.lean ====
/-
  The reference's result at one entry, read through its stages.

  Entry `(r, j)` of the reference's log-softmax is the classifier head of node `r`'s hidden row
  `h g = (∑ f, x r f · W0 f g + ∑ f, T r f · W1 f g) + b g`, where `T` is the edge-aggregated feature matrix
  (the accumulating scatter of the weighted source rows): two host matrix products, the bias broadcast over the
  nodes, the rectifier against a broadcast zero, the dense layer, and the log-softmax with the row maximum
  (a host max-reduction from −∞, taken once more against −∞) subtracted.
-/
import proofs.«405329_j49641232007490_3_alg».proof.Proof.RefReadPatched
import proofs.«405329_j49641232007490_3_alg».proof.Proof.HeadSpec
import Idealize.ShloMosaic.PureOps.Reduce

noncomputable section

namespace Cert.Cheb.RefHead

open Cert.ReferenceIdeal Cert.ReferenceIdeal.ReadP Idealize.ShloMosaic Idealize.ShloMosaic.ValueIdx Cert.Cheb

/-- Entry `(r, g)` of the hidden layer before the rectifier: the two matrix products and the bias. -/
theorem hidden_apply (x0 : (⟨S2048x2048, .f32⟩ : BufTy).Contents (Elt Ideal)) (x1 : (⟨S2x65536, .i32⟩ : BufTy).Contents (Elt Ideal))
    (x2 x3 : (⟨S2048x10, .f32⟩ : BufTy).Contents (Elt Ideal)) (x4 : (⟨S10, .f32⟩ : BufTy).Contents (Elt Ideal)) (r : Fin 2048) (g : Fin 10) :
    val_main_v52 (F := Ideal) x0 x1 x2 x3 x4 (ix2 r g)
      = ((∑ f : Fin 2048, x0 (ix2 r f) * x2 (ix2 f g))
          + ∑ f : Fin 2048, val_main_v46 (F := Ideal) x0 x1 (ix2 r f) * x3 (ix2 f g)) + x4 (ix1 g) := by
  have el47 : ∀ k : Fin 2048, lidx_main_v47 (ix2 r g) k = ix2 r k := fun k =>
    funext fun a => Fin.ext (by match a with | ⟨0, _⟩ => rfl | ⟨1, _⟩ => rfl)
  have er47 : ∀ k : Fin 2048, ridx_main_v47 (ix2 r g) k = ix2 k g := fun k =>
    funext fun a => Fin.ext (by match a with | ⟨0, _⟩ => rfl | ⟨1, _⟩ => rfl)
  have el48 : ∀ k : Fin 2048, lidx_main_v48 (ix2 r g) k = ix2 r k := fun k =>
    funext fun a => Fin.ext (by match a with | ⟨0, _⟩ => rfl | ⟨1, _⟩ => rfl)
  have er48 : ∀ k : Fin 2048, ridx_main_v48 (ix2 r g) k = ix2 k g := fun k =>
    funext fun a => Fin.ext (by match a with | ⟨0, _⟩ => rfl | ⟨1, _⟩ => rfl)
  have eb : idx_main_v50 (idx_main_v51 (ix2 r g)) = ix1 g :=
    funext fun a => Fin.ext (by match a with | ⟨0, _⟩ => rfl)
  rw [val_main_v52_apply, val_main_v49_apply, val_main_v47_apply, val_main_v48_apply, val_main_v51_apply,
    val_main_v50_apply]
  simp only [Ideal.addf_def, el47, er47, el48, er48, eb]

/-- Entry `(r, j)` of the logits: the dense layer on the rectified hidden row of node `r`. -/
theorem logits_apply (x0 : (⟨S2048x2048, .f32⟩ : BufTy).Contents (Elt Ideal)) (x1 : (⟨S2x65536, .i32⟩ : BufTy).Contents (Elt Ideal))
    (x2 x3 : (⟨S2048x10, .f32⟩ : BufTy).Contents (Elt Ideal)) (x4 : (⟨S10, .f32⟩ : BufTy).Contents (Elt Ideal))
    (x5 : (⟨S10x10, .f32⟩ : BufTy).Contents (Elt Ideal)) (x6 : (⟨S10, .f32⟩ : BufTy).Contents (Elt Ideal)) (r : Fin 2048) (j : Fin 10) :
    val_main_v57 (F := Ideal) x0 x1 x2 x3 x4 x5 x6 (ix2 r j)
      = logit (fun k j' => x5 (ix2 k j')) (fun j' => x6 (ix1 j'))
          (fun g => ((∑ f : Fin 2048, x0 (ix2 r f) * x2 (ix2 f g))
            + ∑ f : Fin 2048, val_main_v46 (F := Ideal) x0 x1 (ix2 r f) * x3 (ix2 f g)) + x4 (ix1 g)) j := by
  have el : ∀ k : Fin 10, lidx_main_v54 (ix2 r j) k = ix2 r k := fun k =>
    funext fun a => Fin.ext (by match a with | ⟨0, _⟩ => rfl | ⟨1, _⟩ => rfl)
  have er : ∀ k : Fin 10, ridx_main_v54 (ix2 r j) k = ix2 k j := fun k =>
    funext fun a => Fin.ext (by match a with | ⟨0, _⟩ => rfl | ⟨1, _⟩ => rfl)
  have eb : idx_main_v55 (idx_main_v56 (ix2 r j)) = ix1 j :=
    funext fun a => Fin.ext (by match a with | ⟨0, _⟩ => rfl)
  rw [val_main_v57_apply, val_main_v54_apply, val_main_v56_apply, val_main_v55_apply]
  simp only [el, er, eb, val_main_v53_apply, val_main_call1_v0_apply, val_main_call1_cst_apply, hidden_apply,
    Ideal.addf_def, Ideal.maximumf_def, Ideal.ofBits_def, Ideal.ofBits_zero_f32]
  rfl

/-- Node `r`'s row of the reduced shape, with coordinate `k` put back on the reduced axis, is `(r, k)`. -/
theorem lift_row (h : S2048x10.Reduces [1] S2048) (r : Fin 2048) (k : Fin 10) :
    h.lift (ix1 r) k = ix2 r k :=
  funext fun a => Fin.ext (by match a with | ⟨0, _⟩ => rfl | ⟨1, _⟩ => rfl)

/-- The row maximum the reference subtracts at node `r`: the fold of `max` over the row of logits from −∞
    (the further maximum against −∞ changes nothing). -/
theorem rowmax_apply (x0 : (⟨S2048x2048, .f32⟩ : BufTy).Contents (Elt Ideal)) (x1 : (⟨S2x65536, .i32⟩ : BufTy).Contents (Elt Ideal))
    (x2 x3 : (⟨S2048x10, .f32⟩ : BufTy).Contents (Elt Ideal)) (x4 : (⟨S10, .f32⟩ : BufTy).Contents (Elt Ideal))
    (x5 : (⟨S10x10, .f32⟩ : BufTy).Contents (Elt Ideal)) (x6 : (⟨S10, .f32⟩ : BufTy).Contents (Elt Ideal)) (r : Fin 2048) :
    val_main_call2_v2 (F := Ideal) x0 x1 x2 x3 x4 x5 x6 (ix1 r)
      = rowMax (fun j' => val_main_v57 (F := Ideal) x0 x1 x2 x3 x4 x5 x6 (ix2 r j')) := by
  have h : S2048x10.Reduces [1] S2048 := by decide
  have e0 : val_main_call2_v0 (F := Ideal) x0 x1 x2 x3 x4 x5 x6 (ix1 r)
      = rowMax (fun j' => val_main_v57 (F := Ideal) x0 x1 x2 x3 x4 x5 x6 (ix2 r j')) := by
    unfold val_main_call2_v0
    rw [Host.reduce_eq_fold_single FloatOps.maximumf _ _ Gen.reducesTo_S2048x10_S2048_d1 h Gen.h_S_]
    have hf : (val_main_v57 (F := Ideal) x0 x1 x2 x3 x4 x5 x6 ∘ h.lift (ix1 r))
        = fun j' : Fin 10 => val_main_v57 (F := Ideal) x0 x1 x2 x3 x4 x5 x6 (ix2 r j') :=
      funext fun k => congrArg (val_main_v57 (F := Ideal) x0 x1 x2 x3 x4 x5 x6) (lift_row h r k)
    exact congrArg (fun f => Finset.fold max (Ideal.ofBits .f32 0xFF800000#32) f (Finset.univ : Finset (Fin 10))) hf
  rw [val_main_call2_v2_apply, val_main_call2_v1_apply, val_main_call2_cst_0_apply, e0]
  exact max_init_rowMax _

/-- Entry `(r, j)` of the logits with node `r`'s row maximum subtracted. -/
theorem shifted_apply (x0 : (⟨S2048x2048, .f32⟩ : BufTy).Contents (Elt Ideal)) (x1 : (⟨S2x65536, .i32⟩ : BufTy).Contents (Elt Ideal))
    (x2 x3 : (⟨S2048x10, .f32⟩ : BufTy).Contents (Elt Ideal)) (x4 : (⟨S10, .f32⟩ : BufTy).Contents (Elt Ideal))
    (x5 : (⟨S10x10, .f32⟩ : BufTy).Contents (Elt Ideal)) (x6 : (⟨S10, .f32⟩ : BufTy).Contents (Elt Ideal)) (r : Fin 2048) (j : Fin 10) :
    val_main_call2_v5 (F := Ideal) x0 x1 x2 x3 x4 x5 x6 (ix2 r j)
      = val_main_v57 (F := Ideal) x0 x1 x2 x3 x4 x5 x6 (ix2 r j) - rowMax (fun j' => val_main_v57 (F := Ideal) x0 x1 x2 x3 x4 x5 x6 (ix2 r j')) := by
  have e : idx_main_call2_v3 (idx_main_call2_v4 (ix2 r j)) = ix1 r :=
    funext fun a => Fin.ext (by match a with | ⟨0, _⟩ => rfl)
  rw [val_main_call2_v5_apply, val_main_call2_v4_apply, val_main_call2_v3_apply, e, rowmax_apply]
  rfl

/-- Entry `(r, j)` of the reference's result is the head of node `r`'s hidden row. -/
theorem ref_apply (x0 : (⟨S2048x2048, .f32⟩ : BufTy).Contents (Elt Ideal)) (x1 : (⟨S2x65536, .i32⟩ : BufTy).Contents (Elt Ideal))
    (x2 x3 : (⟨S2048x10, .f32⟩ : BufTy).Contents (Elt Ideal)) (x4 : (⟨S10, .f32⟩ : BufTy).Contents (Elt Ideal))
    (x5 : (⟨S10x10, .f32⟩ : BufTy).Contents (Elt Ideal)) (x6 : (⟨S10, .f32⟩ : BufTy).Contents (Elt Ideal)) (r : Fin 2048) (j : Fin 10) :
    val_main_v58 (F := Ideal) x0 x1 x2 x3 x4 x5 x6 (ix2 r j)
      = head (fun k j' => x5 (ix2 k j')) (fun j' => x6 (ix1 j'))
          (fun g => ((∑ f : Fin 2048, x0 (ix2 r f) * x2 (ix2 f g))
            + ∑ f : Fin 2048, val_main_v46 (F := Ideal) x0 x1 (ix2 r f) * x3 (ix2 f g)) + x4 (ix1 g)) j := by
  have e8 : idx_main_call2_v8 (idx_main_call2_v10 (ix2 r j)) = ix1 r :=
    funext fun a => Fin.ext (by match a with | ⟨0, _⟩ => rfl)
  have e7 : ∀ k : Fin 10, idx_main_call2_v7 (ix1 r) k = ix2 r k := fun k =>
    funext fun a => Fin.ext (by match a with | ⟨0, _⟩ => rfl | ⟨1, _⟩ => rfl)
  rw [val_main_v58_apply, val_main_call2_v10_apply, val_main_call2_v9_apply, val_main_call2_v8_apply, e8,
    val_main_call2_v7_apply, val_main_call2_cst_1_apply]
  simp only [e7, val_main_call2_v6_apply, shifted_apply, logits_apply, Ideal.subf_def, Ideal.hostUnary_exp_def,
    Ideal.hostUnary_log_def, Ideal.ofBits_def, Ideal.ofBits_zero_f32, zero_add]
  rfl

end Cert.Cheb.RefHead

end
-- ==== Proof.WeightFinite.lean ====
/-
  Every edge weight is a real number.

  The weight of edge `e` is `−d (src e) · d (tgt e)`, where the degree factor `d n` is either `rsqrt (max (deg n) 1)`
  or `0`, as a comparison selects. Whatever the degree count is, `max · 1` is at least one, and the reciprocal
  square root of an extended real that is at least one is a real number (`0` at `+∞`). A gathered entry is an
  entry, so the weight is a product of two real numbers.
-/
import proofs.«405329_j49641232007490_3_alg».proof.Proof.RefReadPatched
import Idealize.ShloMosaic.Lib.IdealHost

set_option maxRecDepth 65536

noncomputable section

namespace Cert.Cheb.WeightFinite

open Cert.ReferenceIdeal Cert.ReferenceIdeal.ReadP Idealize.ShloMosaic Idealize.ShloMosaic.ValueIdx

/-- The reciprocal square root of an extended real that is at least one is a real number. -/
theorem rsqrt_real_of_one_le (a : EReal) (h : 1 ≤ a) : ∃ r : ℝ, Ideal.rsqrt a = (r : EReal) := by
  induction a using EReal.rec with
  | bot =>
    have hlt : (⊥ : EReal) < 1 := by exact_mod_cast EReal.bot_lt_coe 1
    exact absurd h (not_le.mpr hlt)
  | top => exact ⟨0, by simp⟩
  | coe r =>
    have hr : (1 : ℝ) ≤ r := by exact_mod_cast h
    refine ⟨(Real.sqrt r)⁻¹, ?_⟩
    rw [Ideal.rsqrt_coe, if_neg (by linarith), if_neg (by linarith)]

/-- Each degree factor is a real number. -/
theorem degree_factor_real (x1 : (⟨S2x65536, .i32⟩ : BufTy).Contents (Elt Ideal)) (n : S2048.Idx) :
    ∃ r : ℝ, val_main_v17 (F := Ideal) x1 n = (r : EReal) := by
  rw [val_main_v17_apply]
  by_cases hb : val_main_v13 (F := Ideal) x1 n = 1#1
  · rw [hb, select_one, val_main_v16_apply, Ideal.hostUnary_rsqrt_def, val_main_v15_apply, Ideal.maximumf_def]
    refine rsqrt_real_of_one_le _ (le_trans (le_of_eq ?_) (le_max_right _ _))
    show (1 : EReal) = Ideal.ofBits .f32 0x3F800000#32
    rw [Ideal.ofBits_one_f32]
  · rw [eq_zero_of_ne_one hb, select_zero]
    refine ⟨0, ?_⟩
    show Ideal.ofBits .f32 0x00000000#32 = ((0 : ℝ) : EReal)
    rw [Ideal.ofBits_zero_f32, EReal.coe_zero]

/-- A gathered degree factor is a degree factor, hence a real number. -/
theorem gathered_real (x1 : (⟨S2x65536, .i32⟩ : BufTy).Contents (Elt Ideal)) (idx : (⟨S65536x1, .i32⟩ : BufTy).Contents (Elt Ideal))
    (e : S65536.Idx) :
    ∃ r : ℝ, Host.gather gather_S2048_S65536x1_S65536_n_0_n_n_0_1_1 (val_main_v17 (F := Ideal) x1) idx e = (r : EReal) := by
  unfold Host.gather
  exact degree_factor_real x1 _

/-- Each edge weight is a real number. -/
theorem weight_real (x1 : (⟨S2x65536, .i32⟩ : BufTy).Contents (Elt Ideal)) (e : S65536.Idx) :
    ∃ r : ℝ, val_main_v33 (F := Ideal) x1 e = (r : EReal) := by
  obtain ⟨a, ha⟩ := gathered_real x1 (val_main_v23 (F := Ideal) x1) e
  obtain ⟨b, hb⟩ := gathered_real x1 (val_main_v31 (F := Ideal) x1) e
  refine ⟨-a * b, ?_⟩
  rw [val_main_v33_apply, val_main_v25_apply, Ideal.mulf_def, Ideal.hostNegf_def, Ideal.negf_def]
  unfold val_main_v24 val_main_v32
  rw [ha, hb, EReal.coe_mul, EReal.coe_neg]

end Cert.Cheb.WeightFinite

end
-- ==== Proof.Reassoc.lean ====
/-
  The one algebraic law that joins the two programs.

  The reference aggregates the source rows of `x` along the edges into each target node and then projects with
  `W1`; the kernel projects `x` with `W1` first and then aggregates through the dense matrix
  `A c k = ∑ e, [tgt e = c ∧ src e = k] w e`. For a target node `c` and one output channel (`y f = W1 f g`):

    ∑ k, A c k · (∑ f, x k f · y f)  =  ∑ f, (∑ e, [tgt e = c] w e · x (src e) f) · y f.

  Both sides are `∑ e, [tgt e = c] w e · ∑ f, x (src e) f · y f`: on the left the sum over `k` keeps only
  `k = src e`, on the right the factor `y f` moves inside the sum over edges. This uses distributivity, so it is
  a law of the reals; on the extended reals it holds where `w`, `x` and `y` are finite.
-/
import Idealize.ShloMosaic.PureOps.Ideal.Laws

noncomputable section

namespace Cert.Cheb

/-- The coercion of the reals into the extended reals commutes with finite sums. -/
theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A guarded real, coerced: the guard moves under the coercion. -/
theorem ite_coe (p : Prop) [Decidable p] (a : ℝ) : (if p then (a : EReal) else 0) = ((if p then a else 0 : ℝ) : EReal) := by
  split_ifs <;> simp

/-- The law over the reals. -/
theorem aggregate_project_real {E N Fe : Type*} [Fintype E] [Fintype N] [Fintype Fe] [DecidableEq N]
    (src tgt : E → N) (w : E → ℝ) (x : N → Fe → ℝ) (y : Fe → ℝ) (c : N) :
    ∑ k, (∑ e, if tgt e = c ∧ src e = k then w e else 0) * (∑ f, x k f * y f)
      = ∑ f, (∑ e, if tgt e = c then w e * x (src e) f else 0) * y f := by
  have hL : ∑ k, (∑ e, if tgt e = c ∧ src e = k then w e else 0) * (∑ f, x k f * y f)
      = ∑ e, if tgt e = c then w e * (∑ f, x (src e) f * y f) else 0 := by
    simp only [Finset.sum_mul]
    rw [Finset.sum_comm]
    refine Finset.sum_congr rfl fun e _ => ?_
    rw [Finset.sum_eq_single (src e)]
    · by_cases h : tgt e = c <;> simp [h]
    · intro k _ hk
      rw [if_neg (fun h => hk h.2.symm), zero_mul]
    · intro h
      exact absurd (Finset.mem_univ _) h
  have hR : ∑ f, (∑ e, if tgt e = c then w e * x (src e) f else 0) * y f
      = ∑ e, if tgt e = c then w e * (∑ f, x (src e) f * y f) else 0 := by
    simp only [Finset.sum_mul]
    rw [Finset.sum_comm]
    refine Finset.sum_congr rfl fun e _ => ?_
    by_cases h : tgt e = c
    · simp only [h, if_true, Finset.mul_sum, mul_assoc]
    · simp [h]
  rw [hL, hR]

/-- The law over the extended reals, where the edge weights, the features and the projection column are finite. -/
theorem aggregate_project {E N Fe : Type*} [Fintype E] [Fintype N] [Fintype Fe] [DecidableEq N]
    (src tgt : E → N) (w : E → EReal) (x : N → Fe → EReal) (y : Fe → EReal)
    (hw : ∀ e, ∃ r : ℝ, w e = r) (hx : ∀ k f, ∃ r : ℝ, x k f = r) (hy : ∀ f, ∃ r : ℝ, y f = r) (c : N) :
    ∑ k, (∑ e, if tgt e = c ∧ src e = k then w e else 0) * (∑ f, x k f * y f)
      = ∑ f, (∑ e, if tgt e = c then w e * x (src e) f else 0) * y f := by
  choose wr hwr using hw
  choose xr hxr using hx
  choose yr hyr using hy
  simp only [hwr, hxr, hyr, ← EReal.coe_mul, ite_coe, ← coe_sum]
  exact congrArg _ (aggregate_project_real src tgt wr xr yr c)

end Cert.Cheb

end
-- ==== Proof.Bridge.lean ====
/-
  The kernel's block entries are the reference's entries.

  For node `r` both programs form a hidden row and apply the same classifier head to it. The kernel's row is
  `(x·W0) r g + ∑ k, A r k · (x·W1) k g + b g` with `A` the dense adjacency; the reference's is
  `∑ f, x r f · W0 f g + ∑ f, T r f · W1 f g + b g` with `T` the edge-aggregated features. The first and the last
  summands agree entry by entry; the middle ones are the two sides of the reassociation law — aggregate then
  project against project then aggregate — over one weight vector, the same in both programs, which holds because
  the weights, the features and `W1` are real-valued and the edge list is in range.
-/
import proofs.«405329_j49641232007490_3_alg».proof.Proof.KernelBlocks
import proofs.«405329_j49641232007490_3_alg».proof.Proof.KernelHost
import proofs.«405329_j49641232007490_3_alg».proof.Proof.KernelWeights
import proofs.«405329_j49641232007490_3_alg».proof.Proof.KernelProjection
import proofs.«405329_j49641232007490_3_alg».proof.Proof.KernelAdjacency
import proofs.«405329_j49641232007490_3_alg».proof.Proof.RefAggregate
import proofs.«405329_j49641232007490_3_alg».proof.Proof.RefHead
import proofs.«405329_j49641232007490_3_alg».proof.Proof.WeightFinite
import proofs.«405329_j49641232007490_3_alg».proof.Proof.Reassoc

set_option maxRecDepth 16384

noncomputable section

namespace Cert.Cheb.Bridge

open Cert.KernelIdeal Cert.KernelIdeal.Gen Idealize.ShloMosaic Idealize.ShloMosaic.TcCoe Idealize.SL.Sem
open Idealize.ShloMosaic.ValueIdx Cert.Cheb Cert.Cheb.KernelBlocks
open Idealize.ShloMosaic.Pipeline (Dat)

variable (m : (ℓ : Loc nD τ sig) → Buf (Elt Ideal) ℓ) (c : Dev nD)

/-- The arguments as launched, at their literal types. -/
abbrev X0 : FVec Ideal S2048x2048 .f32 := m (c, Proc.devRef .tc main_arg0)
abbrev X1 : IVec S2x65536 32 := m (c, Proc.devRef .tc main_arg1)
abbrev X2 : FVec Ideal S2048x10 .f32 := m (c, Proc.devRef .tc main_arg2)
abbrev X3 : FVec Ideal S2048x10 .f32 := m (c, Proc.devRef .tc main_arg3)
abbrev X4 : FVec Ideal S10 .f32 := m (c, Proc.devRef .tc main_arg4)
abbrev X5 : FVec Ideal S10x10 .f32 := m (c, Proc.devRef .tc main_arg5)
abbrev X6 : FVec Ideal S10 .f32 := m (c, Proc.devRef .tc main_arg6)

/-- The edge weights, one vector for both programs. -/
abbrev wt (e : Fin 65536) : EReal := Cert.ReferenceIdeal.ReadP.val_main_v33 (F := Ideal) (X1 m c) (ix1 e)

/-- The dense adjacency at an entry, over the common weight vector. -/
theorem adjacency_entry (hr : InRange (X1 m c)) (r k : Fin 2048) :
    adj m c (ix2 r k)
      = ∑ e : Fin 65536, if node (X1 m c) 1 e = r ∧ node (X1 m c) 0 e = k then wt m c e else 0 := by
  show (V m c main_v36 : S2048x2048.Idx → EReal) (ix2 r k) = _
  rw [KernelWeights.V_v36, KernelWeights.V_v29]
  exact KernelAdjacency.adjacency_apply (X1 m c) _ hr r k

/-- The two hidden rows agree, entry by entry. -/
theorem hidden_eq (hr : InRange (X1 m c)) (hx0 : ∀ i, ∃ a : ℝ, X0 m c i = (a : EReal)) (hx3 : ∀ i, ∃ a : ℝ, X3 m c i = (a : EReal))
    (r : Fin 2048) (g : Fin 10) :
    (xw0 m c (ix2 r g) + ∑ k : Fin 2048, adj m c (ix2 r k) * xw1 m c (ix2 k g)) + b1 m c (ix2 0 g)
    = ((∑ f : Fin 2048, X0 m c (ix2 r f) * X2 m c (ix2 f g))
        + ∑ f : Fin 2048, Cert.ReferenceIdeal.ReadP.val_main_v46 (F := Ideal) (X0 m c) (X1 m c) (ix2 r f) * X3 m c (ix2 f g))
      + X4 m c (ix1 g) := by
  have h39 : xw0 m c (ix2 r g) = ∑ f : Fin 2048, X0 m c (ix2 r f) * X2 m c (ix2 f g) :=
    (congrFun (KernelHost.V_v39 m c) (ix2 r g)).trans (KernelProjection.xw0_apply (X0 m c) (X2 m c) (X3 m c) r g)
  have h40 : ∀ k : Fin 2048, xw1 m c (ix2 k g) = ∑ f : Fin 2048, X0 m c (ix2 k f) * X3 m c (ix2 f g) := fun k =>
    (congrFun (KernelHost.V_v40 m c) (ix2 k g)).trans (KernelProjection.xw1_apply (X0 m c) (X2 m c) (X3 m c) k g)
  have h41 : b1 m c (ix2 0 g) = X4 m c (ix1 g) :=
    (congrFun (KernelHost.V_v41 m c) (ix2 0 g)).trans (KernelProjection.bias_apply (X4 m c) g)
  have hT : ∀ f : Fin 2048, Cert.ReferenceIdeal.ReadP.val_main_v46 (F := Ideal) (X0 m c) (X1 m c) (ix2 r f)
      = ∑ e : Fin 65536, if node (X1 m c) 1 e = r then wt m c e * X0 m c (ix2 (node (X1 m c) 0 e) f) else 0 :=
    fun f => RefAggregate.aggregate_apply (X0 m c) (X1 m c) hr r f
  have hlaw := aggregate_project (node (X1 m c) 0) (node (X1 m c) 1) (wt m c) (fun k f => X0 m c (ix2 k f)) (fun f => X3 m c (ix2 f g))
    (fun e => WeightFinite.weight_real (X1 m c) (ix1 e)) (fun k f => hx0 (ix2 k f)) (fun f => hx3 (ix2 f g)) r
  have hmid : ∑ k : Fin 2048, adj m c (ix2 r k) * xw1 m c (ix2 k g)
      = ∑ f : Fin 2048, Cert.ReferenceIdeal.ReadP.val_main_v46 (F := Ideal) (X0 m c) (X1 m c) (ix2 r f) * X3 m c (ix2 f g) := by
    calc ∑ k : Fin 2048, adj m c (ix2 r k) * xw1 m c (ix2 k g)
        = ∑ k : Fin 2048, (∑ e : Fin 65536, if node (X1 m c) 1 e = r ∧ node (X1 m c) 0 e = k then wt m c e else 0)
            * (∑ f : Fin 2048, X0 m c (ix2 k f) * X3 m c (ix2 f g)) :=
          Finset.sum_congr rfl fun k _ => by rw [adjacency_entry m c hr r k, h40 k]
      _ = ∑ f : Fin 2048, (∑ e : Fin 65536, if node (X1 m c) 1 e = r then wt m c e * X0 m c (ix2 (node (X1 m c) 0 e) f) else 0) * X3 m c (ix2 f g) := hlaw
      _ = _ := Finset.sum_congr rfl fun f _ => by rw [hT f]
  rw [h39, h41, hmid]

end Cert.Cheb.Bridge

end
-- ==== Proof.KernelFinal.lean ====
/-
  The kernel's whole output array.

  Entry `(p, j)` of what grid point `t` writes back is the reference's entry `(128·t + p, j)`: both are the
  classifier head, with the same dense layer and bias, of hidden rows that agree. Point `t`'s block is rows
  `128·t … 128·t + 127` of the output, all ten columns; the 16 blocks tile the 2048 rows, and the block that holds
  row `r` is point `r / 128`'s. So after the run the output array is the reference's result, as one function of the
  arguments.
-/
import proofs.«405329_j49641232007490_3_alg».proof.Proof.Bridge

set_option maxRecDepth 16384

noncomputable section

namespace Cert.Cheb.KernelFinal

open Cert.KernelIdeal Cert.KernelIdeal.Gen Cert.KernelIdeal.Value Idealize.ShloMosaic Idealize.ShloMosaic.TcCoe Idealize.SL.Sem
open Idealize.ShloMosaic.ValueIdx Cert.Cheb Cert.Cheb.KernelBlocks Cert.Cheb.Bridge
open Idealize.ShloMosaic.Pipeline (Dat)

variable (m : (ℓ : Loc nD τ sig) → Buf (Elt Ideal) ℓ) (c : Dev nD)

/-- The reference's result as one function of the kernel's arguments. -/
abbrev G : S2048x10.Idx → EReal :=
  Cert.ReferenceIdeal.ReadP.val_main_v58 (F := Ideal) (X0 m c) (X1 m c) (X2 m c) (X3 m c) (X4 m c) (X5 m c) (X6 m c)

/-- Entry `(p, j)` of what point `t` writes back is the reference's entry `(128·t + p, j)`. -/
theorem entry_eq (hr : InRange (X1 m c)) (hx0 : ∀ i, ∃ a : ℝ, X0 m c i = (a : EReal)) (hx3 : ∀ i, ∃ a : ℝ, X3 m c i = (a : EReal))
    (t : Fin cfg0.N) (p : Fin 128) (j : Fin 10) :
    ((dats m 0 c).flushed 6 t : S128x10.Idx → EReal) (ix2 p j) = G m c (ix2 (rowOf t p) j) := by
  refine (KernelBlocks.flushed_apply m c t p j).trans ?_
  refine Eq.trans ?_ (RefHead.ref_apply (X0 m c) (X1 m c) (X2 m c) (X3 m c) (X4 m c) (X5 m c) (X6 m c) (rowOf t p) j).symm
  have hwf : (fun (k j' : Fin 10) => wf m c (ix2 k j')) = fun k j' => X5 m c (ix2 k j') := by
    funext k j'; exact congrFun (V_main_arg5 m c) (ix2 k j')
  have hb2 : (fun j' : Fin 10 => b2 m c (ix2 0 j')) = fun j' => X6 m c (ix1 j') := by
    funext j'; exact (congrFun (KernelHost.V_v42 m c) (ix2 0 j')).trans (KernelProjection.bias_apply (X6 m c) j')
  rw [hwf, hb2]
  exact head_congr _ _ (fun g => hidden_eq m c hr hx0 hx3 (rowOf t p) g) j

/-- What point `t` writes back is block `t` of the reference's result. -/
theorem flushed_eq (hr : InRange (X1 m c)) (hx0 : ∀ i, ∃ a : ℝ, X0 m c i = (a : EReal)) (hx3 : ∀ i, ∃ a : ℝ, X3 m c i = (a : EReal))
    (t : Fin cfg0.N) :
    (dats m 0 c).flushed 6 t = ((cfg0.win 6).blk t).view.read (Elt Ideal) (G m c) := by
  obtain ⟨-, -, -, -, -, -, -, -, -, -, -, -, e60, e61, -⟩ := grid_facts t
  refine funext fun (y : S128x10.Idx) => ?_
  obtain ⟨p, j, rfl⟩ : ∃ (p : Fin 128) (j : Fin 10), y = ix2 p j := ⟨y 0, y 1, eq_ix2 y⟩
  refine (entry_eq m c hr hx0 hx3 t p j).trans ?_
  show G m c (ix2 (rowOf t p) j) = G m c (((cfg0.win 6).blk t).view.emb (ix2 p j))
  refine congrArg _ (funext fun a => Fin.ext ?_)
  match a with
  | ⟨0, _⟩ => show 128 * t.val + p.val = win0_6.index t (0 : Fin 2) * 128 + 1 * p.val; omega
  | ⟨1, _⟩ => show j.val = win0_6.index t (1 : Fin 2) * 10 + 1 * j.val; omega

/-- An index of the output array is in point `t`'s block iff each coordinate is in the block's range on its axis. -/
theorem mem_block (t : Fin cfg0.N) (i : S2048x10.Idx) :
    i ∈ ((cfg0.win 6).blk t).view.set ↔ ∀ a : Fin 2, win0_6.index t a * S128x10.size a ≤ (i a).val
      ∧ (i a).val < win0_6.index t a * S128x10.size a + S128x10.size a := by
  show i ∈ ((View.whole main_v43).slice (win0_6.rect t)).set ↔ _
  rw [View.set_slice_whole, Rect.mem_set_unit]
  exact Iff.rfl

/-- Every block row of the output is some point's. -/
theorem point_onto : ∀ q : Fin 16, ∃ t : Fin cfg0.N, win0_6.index t = ![q.val, 0] :=
  (by decide +kernel : ∀ q : Fin 16, ∃ t : Fin grid0.N, win0_6.index t = ![q.val, 0])

/-- The 16 blocks cover the output array: row `r` is in point `r / 128`'s block. -/
theorem cover (i : S2048x10.Idx) : ∃ t : Fin cfg0.N, (cfg0.win 6).flush t = true ∧ i ∈ ((cfg0.win 6).blk t).view.set := by
  have hi0 : (i 0).val < 2048 := (i 0).isLt
  have hi1 : (i 1).val < 10 := (i 1).isLt
  obtain ⟨t, ht⟩ := point_onto ⟨(i 0).val / 128, by omega⟩
  have q0 : win0_6.index t (0 : Fin 2) = (i 0).val / 128 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 10 ≤ (i 1).val ∧ (i 1).val < win0_6.index t (1 : Fin 2) * 10 + 10; omega

/-- After the run the output array is the reference's result of the arguments. -/
theorem final (hr : InRange (X1 m c)) (hx0 : ∀ i, ∃ a : ℝ, X0 m c i = (a : EReal)) (hx3 : ∀ i, ∃ a : ℝ, X3 m c i = (a : EReal)) :
    (dats m 0 c).arrAt 6 cfg0.N = G m c :=
  (dats m 0 c).arrAt_eq_of_cover 6 (G m c) (fun t _ => flushed_eq m c hr hx0 hx3 t) (cover)

end Cert.Cheb.KernelFinal

end
-- ==== Proof.lean ====
/-
  The certificate: a Chebyshev graph convolution of order two, a dense layer and a log-softmax, as a Pallas kernel,
  equals its jnp reference over the extended reals, for finite float inputs and an edge list whose entries are node
  numbers.

  The kernel reassociates the convolution's second term: instead of aggregating the features `x` along the edges
  and projecting the result with `W1`, it projects first (`x·W1`, ten columns) and multiplies by the dense weighted
  adjacency, which the host builds by scattering the edge weights at the linearized positions
  `tgt · 2048 + src`. Over the reals the two agree by distributivity (Proof/Reassoc.lean); on the extended reals
  that needs the weights, the features and `W1` to be real numbers (Proof/WeightFinite.lean, Proof/PreDecode.lean).
  The linearized position identifies an edge's endpoints only for node numbers in `[0, 2048)`, which is also where
  the reference's own indexing is in range: the precondition says so (Proof/PreDecode.lean reads it back).
  Everything after the hidden row — rectifier, dense layer, log-softmax with the row maximum subtracted — is one
  row-wise function in both programs (Proof/HeadSpec.lean; Proof/KernelHead.lean and Proof/RefHead.lean read each
  program's operations down to it). The kernel runs over 16 grid points of 128 rows each; Proof/KernelBlocks.lean
  and Proof/KernelFinal.lean read what each point writes back and tile the output with the blocks.
  The frames of the two kernel programs are the generated frame certificates; the reference's frame is its run
  with the result dropped.
-/
import proofs.«405329_j49641232007490_3_alg».proof.Defs
import proofs.«405329_j49641232007490_3_alg».proof.Proof.Gen.Kernel
import proofs.«405329_j49641232007490_3_alg».proof.Proof.Gen.Kernel.Skeleton
import proofs.«405329_j49641232007490_3_alg».proof.Proof.Gen.Kernel.Launch
import proofs.«405329_j49641232007490_3_alg».proof.Proof.Gen.Kernel.Points
import proofs.«405329_j49641232007490_3_alg».proof.Proof.Gen.Kernel.Frame
import proofs.«405329_j49641232007490_3_alg».proof.Proof.Gen.KernelIdeal
import proofs.«405329_j49641232007490_3_alg».proof.Proof.Gen.KernelIdeal.Skeleton
import proofs.«405329_j49641232007490_3_alg».proof.Proof.Gen.KernelIdeal.Launch
import proofs.«405329_j49641232007490_3_alg».proof.Proof.Gen.KernelIdeal.Points
import proofs.«405329_j49641232007490_3_alg».proof.Proof.Gen.KernelIdeal.Frame
import proofs.«405329_j49641232007490_3_alg».proof.Proof.Gen.ReferenceIdeal
import proofs.«405329_j49641232007490_3_alg».proof.Proof.Gen.Pre_finite_inputs
import proofs.«405329_j49641232007490_3_alg».proof.Proof.Gen.KernelIdeal.Value
import proofs.«405329_j49641232007490_3_alg».proof.Proof.RefRunPatched
import proofs.«405329_j49641232007490_3_alg».proof.Proof.RefReadPatched
import proofs.«405329_j49641232007490_3_alg».proof.Proof.PreDecode
import proofs.«405329_j49641232007490_3_alg».proof.Proof.KernelFinal
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: there is nothing to preserve. -/
theorem preserves : Cert.preserves_Kernel_KernelIdeal := trivial

/-- Both idealized programs end at the reference's result of the arguments: the kernel's output array block by
    block, the reference by its own run, from memories that agree on the arguments. -/
theorem algebraic : Cert.algebraic_KernelIdeal_ReferenceIdeal := by
  intro m ρ m' ρ' hpre hagree
  refine ⟨fun c => Cert.Cheb.KernelFinal.G m c, ?_, ?_⟩
  · refine (θ_run Cert.KernelIdeal.defs _ _).mono (fun r h c => ⟨(h c).1.trans ?_, (h c).2⟩)
      (Cert.KernelIdeal.Value.run_blocks m ρ)
    obtain ⟨hx0, hx3, hr⟩ := Cert.Cheb.PreDecode.decode _ _ _ _ _ _ _ (hpre c)
    exact Cert.Cheb.KernelFinal.final m c hr hx0 hx3
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v58_eq]
    obtain ⟨e0, e1, e2, e3, e4, e5, e6⟩ := hagree c
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
